-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) (main_arg2 : IVec S8192 32) (main_arg3 : IVec S8192x64 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S16384 : Shape := ⟨1, ![16384]⟩
abbrev S8192x1 : Shape := ⟨2, ![8192, 1]⟩
abbrev S8192x64x1 : Shape := ⟨3, ![8192, 64, 1]⟩
abbrev S1x1 : Shape := ⟨2, ![1, 1]⟩
abbrev S64x8192 : Shape := ⟨2, ![64, 8192]⟩
abbrev S64x64 : Shape := ⟨2, ![64, 64]⟩
abbrev S64x1 : Shape := ⟨2, ![64, 1]⟩
abbrev S64 : Shape := ⟨1, ![64]⟩
abbrev S1 : Shape := ⟨1, ![1]⟩

abbrev nBuf : Space → Nat
  | .hbm => 35
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192, .i32⟩
  | .hbm, ⟨3, _⟩ => ⟨S8192x64, .i32⟩
  | .hbm, ⟨4, _⟩ => ⟨S_, .i32⟩
  | .hbm, ⟨5, _⟩ => ⟨S16384, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S16384, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8192x64, .i32⟩
  | .hbm, ⟨20, _⟩ => ⟨S8192x64, .i32⟩
  | .hbm, ⟨21, _⟩ => ⟨S_, .i32⟩
  | .hbm, ⟨22, _⟩ => ⟨S8192x64, .i32⟩
  | .hbm, ⟨23, _⟩ => ⟨S8192x64, .i32⟩
  | .hbm, ⟨24, _⟩ => ⟨S_, .i32⟩
  | .hbm, ⟨25, _⟩ => ⟨S8192x64, .i32⟩
  | .hbm, ⟨26, _⟩ => ⟨S8192x64, .i1⟩
  | .hbm, ⟨27, _⟩ => ⟨S_, .i32⟩
  | .hbm, ⟨28, _⟩ => ⟨S8192x64, .i32⟩
  | .hbm, ⟨29, _⟩ => ⟨S8192x64, .i32⟩
  | .hbm, ⟨30, _⟩ => ⟨S8192x64, .i32⟩
  | .hbm, ⟨31, _⟩ => ⟨S8192x64x1, .i32⟩
  | .hbm, ⟨32, _⟩ => ⟨S8192x64, .i32⟩
  | .hbm, ⟨33, _⟩ => ⟨S1x1, .f32⟩
  | .hbm, ⟨34, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x64, .i32⟩
  | .local _ .vmem, ⟨3, _⟩ => ⟨S64x64, .i32⟩
  | .local _ .vmem, ⟨4, _⟩ => ⟨S64x64, .f32⟩
  | .local _ .vmem, ⟨5, _⟩ => ⟨S64x64, .f32⟩
  | .local _ .vmem, ⟨6, _⟩ => ⟨S1x1, .f32⟩
  | .local _ .vmem, ⟨7, _⟩ => ⟨S64x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S16384 : S_.BroadcastsInDim S16384 (![] : Fin 0 → Fin S16384.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  iota_S64x8192_d1_w32 : S64x8192.Iotas .tc 32 [1]
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S64x64_o0_0_S64x1 : S64x64.Slices ![0, 0] S64x1
  broadcasts_S64x1_S64x8192 : S64x1.Broadcasts S64x8192
  shapeCasts_S64x1_S64x1 : S64x1.ShapeCasts S64x1
  slices_S64x64_o0_1_S64x1 : S64x64.Slices ![0, 1] S64x1
  slices_S64x64_o0_2_S64x1 : S64x64.Slices ![0, 2] S64x1
  slices_S64x64_o0_3_S64x1 : S64x64.Slices ![0, 3] S64x1
  slices_S64x64_o0_4_S64x1 : S64x64.Slices ![0, 4] S64x1
  slices_S64x64_o0_5_S64x1 : S64x64.Slices ![0, 5] S64x1
  slices_S64x64_o0_6_S64x1 : S64x64.Slices ![0, 6] S64x1
  slices_S64x64_o0_7_S64x1 : S64x64.Slices ![0, 7] S64x1
  slices_S64x64_o0_8_S64x1 : S64x64.Slices ![0, 8] S64x1
  slices_S64x64_o0_9_S64x1 : S64x64.Slices ![0, 9] S64x1
  slices_S64x64_o0_10_S64x1 : S64x64.Slices ![0, 10] S64x1
  slices_S64x64_o0_11_S64x1 : S64x64.Slices ![0, 11] S64x1
  slices_S64x64_o0_12_S64x1 : S64x64.Slices ![0, 12] S64x1
  slices_S64x64_o0_13_S64x1 : S64x64.Slices ![0, 13] S64x1
  slices_S64x64_o0_14_S64x1 : S64x64.Slices ![0, 14] S64x1
  slices_S64x64_o0_15_S64x1 : S64x64.Slices ![0, 15] S64x1
  slices_S64x64_o0_16_S64x1 : S64x64.Slices ![0, 16] S64x1
  slices_S64x64_o0_17_S64x1 : S64x64.Slices ![0, 17] S64x1
  slices_S64x64_o0_18_S64x1 : S64x64.Slices ![0, 18] S64x1
  slices_S64x64_o0_19_S64x1 : S64x64.Slices ![0, 19] S64x1
  slices_S64x64_o0_20_S64x1 : S64x64.Slices ![0, 20] S64x1
  slices_S64x64_o0_21_S64x1 : S64x64.Slices ![0, 21] S64x1
  slices_S64x64_o0_22_S64x1 : S64x64.Slices ![0, 22] S64x1
  slices_S64x64_o0_23_S64x1 : S64x64.Slices ![0, 23] S64x1
  slices_S64x64_o0_24_S64x1 : S64x64.Slices ![0, 24] S64x1
  slices_S64x64_o0_25_S64x1 : S64x64.Slices ![0, 25] S64x1
  slices_S64x64_o0_26_S64x1 : S64x64.Slices ![0, 26] S64x1
  slices_S64x64_o0_27_S64x1 : S64x64.Slices ![0, 27] S64x1
  slices_S64x64_o0_28_S64x1 : S64x64.Slices ![0, 28] S64x1
  slices_S64x64_o0_29_S64x1 : S64x64.Slices ![0, 29] S64x1
  slices_S64x64_o0_30_S64x1 : S64x64.Slices ![0, 30] S64x1
  slices_S64x64_o0_31_S64x1 : S64x64.Slices ![0, 31] S64x1
  slices_S64x64_o0_32_S64x1 : S64x64.Slices ![0, 32] S64x1
  slices_S64x64_o0_33_S64x1 : S64x64.Slices ![0, 33] S64x1
  slices_S64x64_o0_34_S64x1 : S64x64.Slices ![0, 34] S64x1
  slices_S64x64_o0_35_S64x1 : S64x64.Slices ![0, 35] S64x1
  slices_S64x64_o0_36_S64x1 : S64x64.Slices ![0, 36] S64x1
  slices_S64x64_o0_37_S64x1 : S64x64.Slices ![0, 37] S64x1
  slices_S64x64_o0_38_S64x1 : S64x64.Slices ![0, 38] S64x1
  slices_S64x64_o0_39_S64x1 : S64x64.Slices ![0, 39] S64x1
  slices_S64x64_o0_40_S64x1 : S64x64.Slices ![0, 40] S64x1
  slices_S64x64_o0_41_S64x1 : S64x64.Slices ![0, 41] S64x1
  slices_S64x64_o0_42_S64x1 : S64x64.Slices ![0, 42] S64x1
  slices_S64x64_o0_43_S64x1 : S64x64.Slices ![0, 43] S64x1
  slices_S64x64_o0_44_S64x1 : S64x64.Slices ![0, 44] S64x1
  slices_S64x64_o0_45_S64x1 : S64x64.Slices ![0, 45] S64x1
  slices_S64x64_o0_46_S64x1 : S64x64.Slices ![0, 46] S64x1
  slices_S64x64_o0_47_S64x1 : S64x64.Slices ![0, 47] S64x1
  slices_S64x64_o0_48_S64x1 : S64x64.Slices ![0, 48] S64x1
  slices_S64x64_o0_49_S64x1 : S64x64.Slices ![0, 49] S64x1
  slices_S64x64_o0_50_S64x1 : S64x64.Slices ![0, 50] S64x1
  slices_S64x64_o0_51_S64x1 : S64x64.Slices ![0, 51] S64x1
  slices_S64x64_o0_52_S64x1 : S64x64.Slices ![0, 52] S64x1
  slices_S64x64_o0_53_S64x1 : S64x64.Slices ![0, 53] S64x1
  slices_S64x64_o0_54_S64x1 : S64x64.Slices ![0, 54] S64x1
  slices_S64x64_o0_55_S64x1 : S64x64.Slices ![0, 55] S64x1
  slices_S64x64_o0_56_S64x1 : S64x64.Slices ![0, 56] S64x1
  slices_S64x64_o0_57_S64x1 : S64x64.Slices ![0, 57] S64x1
  slices_S64x64_o0_58_S64x1 : S64x64.Slices ![0, 58] S64x1
  slices_S64x64_o0_59_S64x1 : S64x64.Slices ![0, 59] S64x1
  slices_S64x64_o0_60_S64x1 : S64x64.Slices ![0, 60] S64x1
  slices_S64x64_o0_61_S64x1 : S64x64.Slices ![0, 61] S64x1
  slices_S64x64_o0_62_S64x1 : S64x64.Slices ![0, 62] S64x1
  slices_S64x64_o0_63_S64x1 : S64x64.Slices ![0, 63] S64x1
  iota_S64x1_d0_w32 : S64x1.Iotas .tc 32 [0]
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  scatter_S16384_S8192x1_S8192_n_0_0_1_wf : ScatterDims.WF S16384 S8192x1 S8192 [] [0] [0] 1
  gather_S16384_S8192x64x1_S8192x64_n_0_n_n_0_2_1_wf : GatherDims.WF S16384 S8192x64x1 S8192x64 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S8192x8192.size a
  hwx0_0 : ∀ i : grid0.Coords, EltTy.bits .f32 = 32 ∨ (Rect.block (s := S8192x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S8192x64.size a
  hwx0_1 : ∀ i : grid0.Coords, EltTy.bits .i32 = 32 ∨ (Rect.block (s := S8192x64) S64x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S8192x64.size a
  hwx0_2 : ∀ i : grid0.Coords, EltTy.bits .f32 = 32 ∨ (Rect.block (s := S8192x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S16384_S8192x1_S8192_n_0_0_1 : ScatterDims S16384 S8192x1 S8192 where
  updateWindowDims := []
  insertedWindowDims := [0]
  scatterDimsToOperandDims := [0]
  indexVectorDim := 1
  wf := scatter_S16384_S8192x1_S8192_n_0_0_1_wf
def gather_S16384_S8192x64x1_S8192x64_n_0_n_n_0_2_1 : GatherDims S16384 S8192x64x1 S8192x64 where
  offsetDims := []
  collapsedSliceDims := [0]
  operandBatchingDims := []
  startIndicesBatchingDims := []
  startIndexMap := [0]
  indexVectorDim := 2
  sliceSizes := ![1]
  wf := gather_S16384_S8192x64x1_S8192x64_n_0_n_n_0_2_1_wf

abbrev win0_0 : Pipeline.Window sig grid0 :=
  Pipeline.Window.ofSpec (Memref.whole main_arg0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S16384 : Shape := ⟨1, ![16384]⟩
abbrev S8192x1 : Shape := ⟨2, ![8192, 1]⟩
abbrev S8192x64x1 : Shape := ⟨3, ![8192, 64, 1]⟩
abbrev S8192x64x2 : Shape := ⟨3, ![8192, 64, 2]⟩
abbrev S8192x2 : Shape := ⟨2, ![8192, 2]⟩

abbrev nBuf : Space → Nat
  | .hbm => 134
  | .vmem => 0
  | .smem => 0
  | _ => 0

abbrev hbmTy0_0 (i : Nat) : BufTy := match i % 128 with
  | 0 => ⟨S8192x8192, .f32⟩
  | 1 => ⟨S8192x64, .f32⟩
  | 2 => ⟨S8192, .i32⟩
  | 3 => ⟨S8192x64, .i32⟩
  | 4 => ⟨S_, .i32⟩
  | 5 => ⟨S16384, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S16384, .i32⟩
  | 16 => ⟨S_, .i32⟩
  | 17 => ⟨S_, .i32⟩
  | 18 => ⟨S_, .i32⟩
  | 19 => ⟨S8192x64, .i32⟩
  | 20 => ⟨S8192x64, .i32⟩
  | 21 => ⟨S_, .i32⟩
  | 22 => ⟨S8192x64, .i32⟩
  | 23 => ⟨S8192x64, .i32⟩
  | 24 => ⟨S_, .i32⟩
  | 25 => ⟨S8192x64, .i32⟩
  | 26 => ⟨S8192x64, .i1⟩
  | 27 => ⟨S_, .i32⟩
  | 28 => ⟨S8192x64, .i32⟩
  | 29 => ⟨S8192x64, .i32⟩
  | 30 => ⟨S8192x64, .i32⟩
  | 31 => ⟨S8192x64x1, .i32⟩
  | 32 => ⟨S8192x64, .i32⟩
  | 33 => ⟨S_, .i32⟩
  | 34 => ⟨S8192x64, .i32⟩
  | 35 => ⟨S8192x64, .i1⟩
  | 36 => ⟨S_, .i32⟩
  | 37 => ⟨S_, .i32⟩
  | 38 => ⟨S8192x64, .i32⟩
  | 39 => ⟨S8192x64, .i32⟩
  | 40 => ⟨S8192, .i32⟩
  | 41 => ⟨S8192x1, .i32⟩
  | 42 => ⟨S8192x64, .i32⟩
  | 43 => ⟨S_, .f32⟩
  | 44 => ⟨S8192x8192, .f32⟩
  | 45 => ⟨S_, .i32⟩
  | 46 => ⟨S8192x64, .i32⟩
  | 47 => ⟨S8192x64, .i1⟩
  | 48 => ⟨S_, .i32⟩
  | 49 => ⟨S8192x64, .i32⟩
  | 50 => ⟨S8192x64, .i32⟩
  | 51 => ⟨S8192x64, .i32⟩
  | 52 => ⟨S_, .i32⟩
  | 53 => ⟨S8192x64, .i32⟩
  | 54 => ⟨S8192x64, .i1⟩
  | 55 => ⟨S_, .i32⟩
  | 56 => ⟨S8192x64, .i32⟩
  | 57 => ⟨S8192x64, .i32⟩
  | 58 => ⟨S8192x64, .i32⟩
  | 59 => ⟨S8192x64x1, .i32⟩
  | 60 => ⟨S8192x64x1, .i32⟩
  | 61 => ⟨S8192x64x2, .i32⟩
  | 62 => ⟨S8192x8192, .f32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S8192x1, .i32⟩
  | 79 => ⟨S8192x1, .i32⟩
  | 80 => ⟨S8192x2, .i32⟩
  | 81 => ⟨S_, .f32⟩
  | 82 => ⟨S8192, .f32⟩
  | 83 => ⟨S8192x8192, .f32⟩
  | 84 => ⟨S_, .f32⟩
  | 85 => ⟨S8192, .f32⟩
  | 86 => ⟨S8192x1, .f32⟩
  | 87 => ⟨S_, .f32⟩
  | 88 => ⟨S_, .f32⟩
  | 89 => ⟨S8192x1, .f32⟩
  | 90 => ⟨S8192x1, .f32⟩
  | 91 => ⟨S8192x8192, .f32⟩
  | 92 => ⟨S8192x8192, .f32⟩
  | 93 => ⟨S_, .f32⟩
  | 94 => ⟨S8192x8192, .f32⟩
  | 95 => ⟨S8192x8192, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1, .f32⟩
  | 102 => ⟨S8192x8192, .f32⟩
  | 103 => ⟨S8192x8192, .f32⟩
  | 104 => ⟨S8192x8192, .f32⟩
  | 105 => ⟨S_, .f32⟩
  | 106 => ⟨S8192, .f32⟩
  | 107 => ⟨S8192x1, .f32⟩
  | 108 => ⟨S8192x1, .f32⟩
  | 109 => ⟨S8192x8192, .f32⟩
  | 110 => ⟨S8192x8192, .f32⟩
  | 111 => ⟨S_, .f32⟩
  | 112 => ⟨S8192x8192, .f32⟩
  | 113 => ⟨S8192x8192, .i1⟩
  | 114 => ⟨S_, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S8192x8192, .f32⟩
  | 121 => ⟨S8192x8192, .i1⟩
  | 122 => ⟨S8192x8192, .f32⟩
  | 123 => ⟨S8192x8192, .f32⟩
  | 124 => ⟨S_, .f32⟩
  | 125 => ⟨S_, .f32⟩
  | 126 => ⟨S8192x8192, .f32⟩
  | 127 => ⟨S8192x8192, .f32⟩
  | _ => ⟨S8192x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_c_11 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_v40 : Ref sig .tc := ⟨.hbm, 66, rfl⟩
abbrev main_c_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_14 : Ref sig .tc := ⟨.hbm, 71, rfl⟩
abbrev main_v44 : Ref sig .tc := ⟨.hbm, 72, rfl⟩
abbrev main_v45 : Ref sig .tc := ⟨.hbm, 73, rfl⟩
abbrev main_c_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_16 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_call2_v0 : Ref sig .tc := ⟨.hbm, 88, rfl⟩
abbrev main_call2_v1 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_19 : Ref sig .tc := ⟨.hbm, 93, rfl⟩
abbrev main_v59 : Ref sig .tc := ⟨.hbm, 94, rfl⟩
abbrev main_v60 : Ref sig .tc := ⟨.hbm, 95, rfl⟩
abbrev main_call3_cst : Ref sig .tc := ⟨.hbm, 96, rfl⟩
abbrev main_call3_v0 : Ref sig .tc := ⟨.hbm, 97, rfl⟩
abbrev main_call3_cst_0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_cst_1 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_v61 : Ref sig .tc := ⟨.hbm, 110, rfl⟩
abbrev main_cst_20 : Ref sig .tc := ⟨.hbm, 111, rfl⟩
abbrev main_v62 : Ref sig .tc := ⟨.hbm, 112, rfl⟩
abbrev main_v63 : Ref sig .tc := ⟨.hbm, 113, rfl⟩
abbrev main_cst_21 : Ref sig .tc := ⟨.hbm, 114, rfl⟩
abbrev main_call4_v0 : Ref sig .tc := ⟨.hbm, 115, rfl⟩
abbrev main_call4_v1 : Ref sig .tc := ⟨.hbm, 116, rfl⟩
abbrev main_v64 : Ref sig .tc := ⟨.hbm, 117, rfl⟩
abbrev main_v65 : Ref sig .tc := ⟨.hbm, 118, rfl⟩
abbrev main_cst_22 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_23 : Ref sig .tc := ⟨.hbm, 124, rfl⟩
abbrev main_call5_v0 : Ref sig .tc := ⟨.hbm, 125, rfl⟩
abbrev main_call5_v1 : Ref sig .tc := ⟨.hbm, 126, rfl⟩
abbrev main_v70 : Ref sig .tc := ⟨.hbm, 127, rfl⟩
abbrev main_cst_24 : Ref sig .tc := ⟨.hbm, 128, rfl⟩
abbrev main_v71 : Ref sig .tc := ⟨.hbm, 129, rfl⟩
abbrev main_cst_25 : Ref sig .tc := ⟨.hbm, 130, rfl⟩
abbrev main_v72 : Ref sig .tc := ⟨.hbm, 131, rfl⟩
abbrev main_cst_26 : Ref sig .tc := ⟨.hbm, 132, rfl⟩
abbrev main_v73 : Ref sig .tc := ⟨.hbm, 133, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S8192x1_S8192x64_0_1 : S8192x1.BroadcastsInDim S8192x64 (![0, 1] : Fin 2 → Fin S8192x64.rank)
  bcast_S_S8192x8192 : S_.BroadcastsInDim S8192x8192 (![] : Fin 0 → Fin S8192x8192.rank)
  concatenates_S8192x64x1_S8192x64x1_S8192x64x2_d2 : Shape.Concatenates [S8192x64x1, S8192x64x1] S8192x64x2 2
  concatenates_S8192x1_S8192x1_S8192x2_d1 : Shape.Concatenates [S8192x1, S8192x1] S8192x2 1
  reducesTo_S8192x8192_S8192_d1 : S8192x8192.ReducesTo [1] S8192
  h_S_ : 0 < S_.numel
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  reducesTo_S8192x8192_S_d0_1 : S8192x8192.ReducesTo [0, 1] S_
  scatter_S16384_S8192x1_S8192_n_0_0_1_wf : ScatterDims.WF S16384 S8192x1 S8192 [] [0] [0] 1
  gather_S16384_S8192x64x1_S8192x64_n_0_n_n_0_2_1_wf : GatherDims.WF S16384 S8192x64x1 S8192x64 [] [0] [] [0] [] 2 ![1]
  scatter_S8192x8192_S8192x64x2_S8192x64_n_01_01_2_wf : ScatterDims.WF S8192x8192 S8192x64x2 S8192x64 [] [0, 1] [0, 1] 2
  scatter_S8192x8192_S8192x2_S8192_n_01_01_1_wf : ScatterDims.WF S8192x8192 S8192x2 S8192 [] [0, 1] [0, 1] 1

variable [Facts₀]

def scatter_S16384_S8192x1_S8192_n_0_0_1 : ScatterDims S16384 S8192x1 S8192 where
  updateWindowDims := []
  insertedWindowDims := [0]
  scatterDimsToOperandDims := [0]
  indexVectorDim := 1
  wf := scatter_S16384_S8192x1_S8192_n_0_0_1_wf
def gather_S16384_S8192x64x1_S8192x64_n_0_n_n_0_2_1 : GatherDims S16384 S8192x64x1 S8192x64 where
  offsetDims := []
  collapsedSliceDims := [0]
  operandBatchingDims := []
  startIndicesBatchingDims := []
  startIndexMap := [0]
  indexVectorDim := 2
  sliceSizes := ![1]
  wf := gather_S16384_S8192x64x1_S8192x64_n_0_n_n_0_2_1_wf
def scatter_S8192x8192_S8192x64x2_S8192x64_n_01_01_2 : ScatterDims S8192x8192 S8192x64x2 S8192x64 where
  updateWindowDims := []
  insertedWindowDims := [0, 1]
  scatterDimsToOperandDims := [0, 1]
  indexVectorDim := 2
  wf := scatter_S8192x8192_S8192x64x2_S8192x64_n_01_01_2_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.RefRunHand.lean ====
/-
  The reference's program, run, stretch by stretch.

  Its 130 host operations are cut where only ONE intermediate array is still to be read: after the local positions
  (29 operations), before the first scatter's index array is joined (57), after the first scatter (59), after
  the second scatter (80), after the normalised target (89), after the pointwise terms (124). Each stretch is read by
  itself, over ANY contents W of the buffers: it leaves in its last buffer the stage applied to what W holds in the
  buffers the stretch reads. No operation writes an argument. So the stretches compose: the result buffer ends at the
  last stage applied to the four arguments.
-/
import proofs.«173937_j79267916415457_1_alg».proof.Proof.RefRun
import proofs.«173937_j79267916415457_1_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP

variable {F : FTy → Type} [FloatOps F]

/-- Running two lists one after the other is running their concatenation. -/
theorem after_append : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_append l l₂]

/-- So a list may be cut anywhere. -/
theorem after_split (k : ℕ) (l : List (HloOp τ sig (Elt F))) (V : Valuation τ sig (Elt F)) :
    after l V = after (l.drop k) (after (l.take k) V) := by
  rw [← after_append, List.take_append_drop]

/-! ## The stretches -/

abbrev st1 : List (HloOp τ sig (Elt F)) := (ops (F := F)).take 29
abbrev re1 : List (HloOp τ sig (Elt F)) := (ops (F := F)).drop 29
abbrev st2a : List (HloOp τ sig (Elt F)) := (re1 (F := F)).take 28
abbrev re2a : List (HloOp τ sig (Elt F)) := (re1 (F := F)).drop 28
abbrev st2b : List (HloOp τ sig (Elt F)) := (re2a (F := F)).take 2
abbrev re2 : List (HloOp τ sig (Elt F)) := (re2a (F := F)).drop 2
abbrev st3 : List (HloOp τ sig (Elt F)) := (re2 (F := F)).take 21
abbrev re3 : List (HloOp τ sig (Elt F)) := (re2 (F := F)).drop 21
abbrev st4 : List (HloOp τ sig (Elt F)) := (re3 (F := F)).take 9
abbrev re4 : List (HloOp τ sig (Elt F)) := (re3 (F := F)).drop 9
abbrev st5 : List (HloOp τ sig (Elt F)) := (re4 (F := F)).take 35
abbrev st6 : List (HloOp τ sig (Elt F)) := (re4 (F := F)).drop 35

/-- Contents moved to a buffer's own type and back are the contents. -/
theorem ofBuf_toBuf {T : BufTy} (x : TRef sig T) (v : T.Contents (Elt F)) : x.ofBuf (x.toBuf v) = v := by
  obtain ⟨r, rfl, h2, h3⟩ := x
  rfl

/-- Operations 1–29: the local positions from the two integer arguments. -/
theorem stretch1 (W : Valuation τ sig (Elt F)) :
    after (st1 (F := F)) W (Proc.devRef .tc main_v16)
      = val_main_v16 (F := F) (W (Proc.devRef .tc main_arg2)) (W (Proc.devRef .tc main_arg3)) := by
  simp only [st1, ops, List.take_succ_cons, List.take_zero]
  after_results_simp
  rfl

/-- Operations 30–57: the scatter's operand (zeros), its row indices and its column indices, the last from the local
    positions; the scores are not written. -/
theorem stretch2a (W : Valuation τ sig (Elt F)) (x2 : (⟨S8192, .i32⟩ : BufTy).Contents (Elt F)) (x3 : (⟨S8192x64, .i32⟩ : BufTy).Contents (Elt F))
    (h16 : W (Proc.devRef .tc main_v16) = val_main_v16 (F := F) x2 x3) :
    after (st2a (F := F)) W (Proc.devRef .tc main_v23) = val_main_v23 (F := F)
    ∧ after (st2a (F := F)) W (Proc.devRef .tc main_v34) = val_main_v34 (F := F)
    ∧ after (st2a (F := F)) W (Proc.devRef .tc main_v35) = val_main_v35 (F := F) x2 x3
    ∧ after (st2a (F := F)) W (Proc.devRef .tc main_arg1) = W (Proc.devRef .tc main_arg1) := by
  simp only [st2a, re1, ops, List.take_succ_cons, List.take_zero, List.drop_succ_cons, List.drop_zero]
  refine ⟨?_, ?_, ?_, ?_⟩
  · after_results_simp; rfl
  · after_results_simp; rfl
  · after_results_simp
    unfold val_main_v35 val_main_v33 val_main_v30 val_main_v32 val_main_v19 val_main_v18
    rw [← h16]
    rfl
  · after_results_simp

/-- Operations 58–59: the index array joined, and the first scatter. -/
theorem stretch2b (W : Valuation τ sig (Elt F)) (x1 : (⟨S8192x64, .f32⟩ : BufTy).Contents (Elt F))
    (x2 : (⟨S8192, .i32⟩ : BufTy).Contents (Elt F)) (x3 : (⟨S8192x64, .i32⟩ : BufTy).Contents (Elt F))
    (h23 : W (Proc.devRef .tc main_v23) = val_main_v23 (F := F)) (h34 : W (Proc.devRef .tc main_v34) = val_main_v34 (F := F))
    (h35 : W (Proc.devRef .tc main_v35) = val_main_v35 (F := F) x2 x3) (h1 : W (Proc.devRef .tc main_arg1) = x1) :
    after (st2b (F := F)) W (Proc.devRef .tc main_v37) = val_main_v37 (F := F) x1 x2 x3 := by
  simp only [st2b, re2a, re1, ops, List.take_succ_cons, List.take_zero, List.drop_succ_cons, List.drop_zero]
  after_results_simp
  rw [h23, h34, h35, h1]
  rfl

/-- Operations 60–80: the second scatter, over the first. -/
theorem stretch3 (W : Valuation τ sig (Elt F)) (x1 : (⟨S8192x64, .f32⟩ : BufTy).Contents (Elt F))
    (x2 : (⟨S8192, .i32⟩ : BufTy).Contents (Elt F)) (x3 : (⟨S8192x64, .i32⟩ : BufTy).Contents (Elt F))
    (h37 : W (Proc.devRef .tc main_v37) = val_main_v37 (F := F) x1 x2 x3) :
    after (st3 (F := F)) W (Proc.devRef .tc main_v53) = val_main_v53 (F := F) x1 x2 x3 := by
  simp only [st3, re2, re2a, re1, ops, List.take_succ_cons, List.take_zero, List.drop_succ_cons, List.drop_zero]
  after_results_simp
  rw [h37]
  rfl

/-- Operations 81–89: the target normalised by its clipped row sums. -/
theorem stretch4 (W : Valuation τ sig (Elt F)) (x1 : (⟨S8192x64, .f32⟩ : BufTy).Contents (Elt F))
    (x2 : (⟨S8192, .i32⟩ : BufTy).Contents (Elt F)) (x3 : (⟨S8192x64, .i32⟩ : BufTy).Contents (Elt F))
    (h53 : W (Proc.devRef .tc main_v53) = val_main_v53 (F := F) x1 x2 x3) :
    after (st4 (F := F)) W (Proc.devRef .tc main_v58) = val_main_v58 (F := F) x1 x2 x3 := by
  simp only [st4, re3, re2, re2a, re1, ops, List.take_succ_cons, List.take_zero, List.drop_succ_cons, List.drop_zero]
  after_results_simp
  rw [h53]
  rfl

set_option maxRecDepth 65536 in
/-- Operations 90–124: the log-softmax of the logits and the pointwise terms. -/
theorem stretch5 (W : Valuation τ sig (Elt F)) (x0 : (⟨S8192x8192, .f32⟩ : BufTy).Contents (Elt F)) (x1 : (⟨S8192x64, .f32⟩ : BufTy).Contents (Elt F))
    (x2 : (⟨S8192, .i32⟩ : BufTy).Contents (Elt F)) (x3 : (⟨S8192x64, .i32⟩ : BufTy).Contents (Elt F))
    (h58 : W (Proc.devRef .tc main_v58) = val_main_v58 (F := F) x1 x2 x3) (h0 : W (Proc.devRef .tc main_arg0) = x0) :
    after (st5 (F := F)) W (Proc.devRef .tc main_v70) = val_main_v70 (F := F) x0 x1 x2 x3 := by
  simp only [st5, re4, re3, re2, re2a, re1, ops, List.take_succ_cons, List.take_zero, List.drop_succ_cons, List.drop_zero]
  after_results_simp
  have t70 : ∀ v, (TRef.of (T := ⟨S8192x8192, .f32⟩) main_v70).toBuf (Val := Elt F) v = v := fun _ => rfl
  have t64 : ∀ v, (TRef.of (T := ⟨S8192x8192, .f32⟩) main_v64).toBuf (Val := Elt F) v = v := fun _ => rfl
  have t61 : ∀ v, (TRef.of (T := ⟨S8192x8192, .f32⟩) main_v61).toBuf (Val := Elt F) v = v := fun _ => rfl
  have o67 : ∀ v, (TRef.of (T := ⟨S8192x8192, .i1⟩) main_v67).ofBuf (Val := Elt F) v = v := fun _ => rfl
  have o69 : ∀ v, (TRef.of (T := ⟨S8192x8192, .f32⟩) main_v69).ofBuf (Val := Elt F) v = v := fun _ => rfl
  have o58 : ∀ v, (TRef.of (T := ⟨S8192x8192, .f32⟩) main_v58).ofBuf (Val := Elt F) v = v := fun _ => rfl
  have o60 : ∀ v, (TRef.of (T := ⟨S8192x8192, .f32⟩) main_v60).ofBuf (Val := Elt F) v = v := fun _ => rfl
  have o21 : ∀ v, (TRef.of (T := ⟨S_, .f32⟩) main_cst_21).ofBuf (Val := Elt F) v = v := fun _ => rfl
  have o23 : ∀ v, (TRef.of (T := ⟨S_, .f32⟩) main_cst_23).ofBuf (Val := Elt F) v = v := fun _ => rfl
  simp only [ofBuf_toBuf, t70, t64, t61, o67, o69, o58, o60, o21, o23]
  unfold val_main_v70 val_main_v67 val_main_v69 val_main_v68 val_main_v65 val_main_v64 val_main_v63 val_main_v61
    val_main_call3_v10 val_main_call3_v9 val_main_call3_v8 val_main_call3_v7 val_main_call3_v6 val_main_call3_v5
    val_main_call3_v4 val_main_call3_v3 val_main_call3_v2 val_main_call3_v0 val_main_v60
    val_main_v66 val_main_cst_22 val_main_v62 val_main_cst_20 val_main_call4_v1 val_main_call4_v0 val_main_cst_21
    val_main_v59 val_main_cst_19 val_main_call3_v1 val_main_call3_cst_0 val_main_call3_cst val_main_call3_cst_1
    val_main_call5_v1 val_main_call5_v0 val_main_cst_23
  rw [← h58, ← h0]

set_option maxRecDepth 65536 in
/-- Operations 125–130: the total, the quotient and the product. -/
theorem stretch6 (W : Valuation τ sig (Elt F)) (x0 : (⟨S8192x8192, .f32⟩ : BufTy).Contents (Elt F)) (x1 : (⟨S8192x64, .f32⟩ : BufTy).Contents (Elt F))
    (x2 : (⟨S8192, .i32⟩ : BufTy).Contents (Elt F)) (x3 : (⟨S8192x64, .i32⟩ : BufTy).Contents (Elt F))
    (h70 : W (Proc.devRef .tc main_v70) = val_main_v70 (F := F) x0 x1 x2 x3) :
    after (st6 (F := F)) W (Proc.devRef .tc main_v73) = val_main_v73 (F := F) x0 x1 x2 x3 := by
  simp only [st6, re4, re3, re2, re2a, re1, ops, List.take_succ_cons, List.take_zero, List.drop_succ_cons, List.drop_zero]
  after_results_simp
  rw [h70]
  rfl

/-! ## No operation writes an argument -/

theorem arg0_kept : ∀ op ∈ (ops (F := F)), Proc.devRef (τ := τ) .tc main_arg0 ∉ op.writes :=
  List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide))

theorem arg1_kept : ∀ op ∈ (ops (F := F)), Proc.devRef (τ := τ) .tc main_arg1 ∉ op.writes :=
  List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide))

theorem arg2_kept : ∀ op ∈ (ops (F := F)), Proc.devRef (τ := τ) .tc main_arg2 ∉ op.writes :=
  List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide))

theorem arg3_kept : ∀ op ∈ (ops (F := F)), Proc.devRef (τ := τ) .tc main_arg3 ∉ op.writes :=
  List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide))

/-- A buffer no operation of the program writes passes through any part of it. -/
theorem keep {b : DevRef τ sig} (hb : ∀ op ∈ (ops (F := F)), b ∉ op.writes) (l : List (HloOp τ sig (Elt F)))
    (hl : ∀ op ∈ l, op ∈ (ops (F := F))) (W : Valuation τ sig (Elt F)) : after l W b = W b :=
  after_of_forall_not_mem l W fun op h => hb op (hl op h)

theorem st1_sub : ∀ op ∈ (st1 (F := F)), op ∈ (ops (F := F)) := fun _ h => List.mem_of_mem_take h
theorem re1_sub : ∀ op ∈ (re1 (F := F)), op ∈ (ops (F := F)) := fun _ h => List.mem_of_mem_drop h
theorem st2a_sub : ∀ op ∈ (st2a (F := F)), op ∈ (ops (F := F)) := fun _ h => re1_sub _ (List.mem_of_mem_take h)
theorem re2a_sub : ∀ op ∈ (re2a (F := F)), op ∈ (ops (F := F)) := fun _ h => re1_sub _ (List.mem_of_mem_drop h)
theorem st2b_sub : ∀ op ∈ (st2b (F := F)), op ∈ (ops (F := F)) := fun _ h => re2a_sub _ (List.mem_of_mem_take h)
theorem re2_sub : ∀ op ∈ (re2 (F := F)), op ∈ (ops (F := F)) := fun _ h => re2a_sub _ (List.mem_of_mem_drop h)
theorem st3_sub : ∀ op ∈ (st3 (F := F)), op ∈ (ops (F := F)) := fun _ h => re2_sub _ (List.mem_of_mem_take h)
theorem re3_sub : ∀ op ∈ (re3 (F := F)), op ∈ (ops (F := F)) := fun _ h => re2_sub _ (List.mem_of_mem_drop h)
theorem st4_sub : ∀ op ∈ (st4 (F := F)), op ∈ (ops (F := F)) := fun _ h => re3_sub _ (List.mem_of_mem_take h)

/-! ## The whole program -/

/-- The result buffer after all 130 operations: the last stage at the four arguments. -/
theorem result_eq (V : Valuation τ sig (Elt F)) :
    after (ops (F := F)) V (Proc.devRef .tc main_v73)
      = val_main_v73 (F := F) (V (Proc.devRef .tc main_arg0)) (V (Proc.devRef .tc main_arg1)) (V (Proc.devRef .tc main_arg2)) (V (Proc.devRef .tc main_arg3)) := by
  have h16 := stretch1 (F := F) V
  have a0_1 := keep (F := F) arg0_kept _ st1_sub V
  have a1_1 := keep (F := F) arg1_kept _ st1_sub V
  obtain ⟨h23, h34, h35, a1_2a⟩ := stretch2a (F := F) (after st1 V) _ _ h16
  have a0_2a := keep (F := F) arg0_kept _ st2a_sub (after st1 V)
  have h37 := stretch2b (F := F) (after st2a (after st1 V)) _ _ _ h23 h34 h35 (a1_2a.trans a1_1)
  have a0_2b := keep (F := F) arg0_kept _ st2b_sub (after st2a (after st1 V))
  have h53 := stretch3 (F := F) (after st2b (after st2a (after st1 V))) _ _ _ h37
  have a0_3 := keep (F := F) arg0_kept _ st3_sub (after st2b (after st2a (after st1 V)))
  have h58 := stretch4 (F := F) (after st3 (after st2b (after st2a (after st1 V)))) _ _ _ h53
  have a0_4 := keep (F := F) arg0_kept _ st4_sub (after st3 (after st2b (after st2a (after st1 V))))
  have h70 := stretch5 (F := F) (after st4 (after st3 (after st2b (after st2a (after st1 V))))) _ _ _ _ h58
    (a0_4.trans (a0_3.trans (a0_2b.trans (a0_2a.trans a0_1))))
  have h73 := stretch6 (F := F) (after st5 (after st4 (after st3 (after st2b (after st2a (after st1 V)))))) _ _ _ _ h70
  rw [after_split 29 (ops (F := F)) V, after_split 28 (re1 (F := F)), after_split 2 (re2a (F := F)), after_split 21 (re2 (F := F)),
    after_split 9 (re3 (F := F)), after_split 35 (re4 (F := F))]
  exact h73

/-- From any memory with zero counters every weakly fair execution of the reference's program terminates with the result
    buffer at the last stage applied to the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = val_main_v73 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v73).trans (result_eq _),
      (h c main_arg0).trans (after_of_forall_not_mem _ _ arg0_kept),
      (h c main_arg1).trans (after_of_forall_not_mem _ _ arg1_kept),
      (h c main_arg2).trans (after_of_forall_not_mem _ _ arg2_kept),
      (h c main_arg3).trans (after_of_forall_not_mem _ _ arg3_kept)⟩)
    (run_seq scopedRefs_eq scopedSems_eq defs main (fun _ => ops) main_eq (fun _ => ops_sub) m ρ)

end Cert.ReferenceIdeal.HandRun

end
-- ==== Proof.KerTarget.lean ====
/-
  The kernel's target tile as one term.

  At a grid point the kernel zeroes a 64 × 8192 scratch tile and then, for k = 0, …, 63 in order, overwrites it
  where the column's index word equals column k of the tile's index words with column k of the tile's scores
  (`stage k`); last it puts 1 where the column equals the row's global index. `tileT` is that chain: the 64
  stages folded over the columns 0, …, 63 from the zero tile, then the diagonal step.
-/
import proofs.«173937_j79267916415457_1_alg».proof.Proof.Gen.KernelIdeal.Skeleton

noncomputable section

namespace Cert.KernelIdeal.Tile

open Cert.KernelIdeal Cert.KernelIdeal.Gen Idealize.ShloMosaic

variable {F : FTy → Type} [FloatOps F]

/-- Column `k` of a 64 × 64 tile is a 64 × 1 block of it. -/
theorem slicesCol (k : Fin 64) : S64x64.Slices ![0, k.val] S64x1 :=
  ⟨rfl, fun a => by
    match a with
    | ⟨0, _⟩ => exact Nat.le_refl 64
    | ⟨1, _⟩ => exact Nat.succ_le_of_lt k.isLt⟩

/-- One overwrite: where a column's index word equals the row's `k`-th index word the tile takes the row's `k`-th
    score, elsewhere it keeps `prev`. -/
def stage (k : Fin 64) (lpw : IVec S64x64 32) (ts : Vec F S64x64 .f32) (prev : Vec F S64x8192 .f32) : FVec F S64x8192 .f32 :=
  shapeCast S64x8192
    (select (cmpi .eq (iota .tc S64x8192 32 [1] iota_S64x8192_d1_w32)
                      (broadcastTo S64x8192 (extractStridedSlice S64x1 ![0, k.val] lpw (slicesCol k)) broadcasts_S64x1_S64x8192))
            (broadcastTo S64x8192 (shapeCast S64x1 (extractStridedSlice S64x1 ![0, k.val] ts (slicesCol k)) shapeCasts_S64x1_S64x1) broadcasts_S64x1_S64x8192)
            prev)
    shapeCasts_S64x8192_S64x8192

/-- The columns in the order the kernel visits them. -/
def cols : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

/-- They are all the columns, in increasing order. -/
theorem cols_eq : cols = List.finRange 64 := by decide

/-- The target tile at the grid point whose rows start at the word `v0`: the 64 overwrites from the zero tile, then the
    diagonal. -/
def tileT (v0 : BitVec 32) (x1 : Vec F S64x64 .i32) (x2 : Vec F S64x64 .f32) : FVec F S64x8192 .f32 :=
  k0_pay94 v0 (iota .tc S64x8192 32 [1] iota_S64x8192_d1_w32)
    (cols.foldl (fun acc k => stage k (k0_pay3 x1) x2 acc) (k0_pay2 (F := F)))

end Cert.KernelIdeal.Tile

end
-- ==== Proof.LibReadCov.lean ====
/-
  A general fact about a buffer written by whole-block stores: a load of the whole block after a store of the whole
  block reads that store's payload, whatever was stored before it. (The one-store form is the library's
  `View.readCov_unit_zero`; this is the same statement with earlier stores still in the list.)
-/
import Idealize.ShloMosaic.Lib.Pipeline.Value

namespace Idealize.ShloMosaic.View

open Idealize.ShloMosaic

variable {Val : EltTy → Type} {S : Shape} {e : EltTy}

/-- A load of the whole block after a store of the whole block, whatever was stored before it, reads that store's
    payload: the last store covers every index, so the earlier pieces are never consulted. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.KerPiece.lean ====
/-
  What one grid point leaves in the 1 × 1 output block, in each of the kernel's three control cases, as a term over the
  point's input blocks: the tile's contribution `k0_pay99 …` over zero at the first point, over the previous
  point's contents in between, and that sum times the final scale at the last point. The body's stores and
  reloads of the scratch tile are read back one whole-block store at a time, which leaves the chain of the 64
  overwrites and the diagonal: the term `tileT`.
-/
import proofs.«173937_j79267916415457_1_alg».proof.Proof.Gen.KernelIdeal.Frame
import proofs.«173937_j79267916415457_1_alg».proof.Proof.KerTarget
import proofs.«173937_j79267916415457_1_alg».proof.Proof.LibReadCov

set_option maxRecDepth 65536

noncomputable section

namespace Cert.KernelIdeal.Tile

open Cert.KernelIdeal Cert.KernelIdeal.Gen Idealize.ShloMosaic Idealize.ShloMosaic.TcCoe Idealize.ShloMosaic.Tactic Idealize.SL.Sem

variable {F : FTy → Type} [FloatOps F]

/-- The literal offsets of a whole-block access are zero on both axes. -/
theorem hz2 : (![0, 0] : Fin 2 → ℕ) = fun _ => 0 := funext fun a => by match a with | ⟨0, _⟩ => rfl | ⟨1, _⟩ => rfl

/-- The word of the first global row of the tile at grid coordinates `i`. -/
abbrev rowWord (i : grid0.Coords) : BitVec 32 := Scalar.muli (BitVec.ofNat 32 (i 0).val) 64#32

set_option maxHeartbeats 4000000 in
/-- First point: zero, then the tile's contribution added to it. -/
theorem pieceA (c : Dev nD) (i : grid0.Coords) (arg1 : Memref sig .tc .vmem S64x8192 .f32) (harg1 : arg1.IsWhole) (arg2 : Memref sig .tc .vmem S64x64 .i32) (harg2 : arg2.IsWhole) (arg3 : Memref sig .tc .vmem S64x64 .f32) (harg3 : arg3.IsWhole) (arg4 : Memref sig .tc .vmem S1x1 .f32) (harg4 : arg4.IsWhole) (arg5 : Memref sig .tc .vmem S64x8192 .f32) (harg5 : arg5.IsWhole) (hc0 : cond0_0 i) (hc1 : ¬cond0_1 i)
    (x0 : Vec F S64x8192 .f32) (x1 : Vec F S64x64 .i32) (x2 : Vec F S64x64 .f32) :
    out0_A_3 c i arg1 harg1 arg2 harg2 arg3 harg3 arg4 harg4 arg5 harg5 hc0 hc1 x0 x1 x2
      = k0_pay99 (k0_pay95 (tileT (rowWord i) x1 x2)) (k0_pay96 x0) (k0_pay97 x0) (k0_pay98 (F := F)) := by
  unfold out0_A_3
  rw [View.read_writes_eq_canon _ _ _ (cover0_A_3 c i arg1 harg1 arg2 harg2 arg3 harg3 arg4 harg4 arg5 harg5 hc0 hc1 x0 x1 x2)]
  unfold kernelRun0_A
  dsimp only
  sl_unfold_words
  rw [View.canon_cons_unit_zero (S := S1x1) hz2]
  simp only [View.readCov_cons_unit_zero (S := S64x8192) _ hz2, View.readCov_cons_unit_zero (S := S1x1) _ hz2,
    View.readCov_unit_zero (S := S64x8192) _ hz2, View.readCov_unit_zero (S := S1x1) _ hz2, View.readAt_eq_ld,
    harg1.read_unread, harg2.read_unread, harg3.read_unread, harg4.read_unread,
    View.ld_unit_zero (S := S64x8192) hz2, View.ld_unit_zero (S := S64x64) hz2, View.ld_unit_zero (S := S1x1) hz2]
  rfl

set_option maxHeartbeats 4000000 in
/-- A point in between: the tile's contribution added to what the point before left. -/
theorem pieceB (c : Dev nD) (i : grid0.Coords) (arg1 : Memref sig .tc .vmem S64x8192 .f32) (harg1 : arg1.IsWhole) (arg2 : Memref sig .tc .vmem S64x64 .i32) (harg2 : arg2.IsWhole) (arg3 : Memref sig .tc .vmem S64x64 .f32) (harg3 : arg3.IsWhole) (arg4 : Memref sig .tc .vmem S1x1 .f32) (harg4 : arg4.IsWhole) (arg5 : Memref sig .tc .vmem S64x8192 .f32) (harg5 : arg5.IsWhole) (hc0 : ¬cond0_0 i) (hc1 : ¬cond0_1 i)
    (x0 : Vec F S64x8192 .f32) (x1 : Vec F S64x64 .i32) (x2 : Vec F S64x64 .f32) (xo3 : Vec F S1x1 .f32) :
    out0_B_3 c i arg1 harg1 arg2 harg2 arg3 harg3 arg4 harg4 arg5 harg5 hc0 hc1 x0 x1 x2 xo3
      = k0_pay99 (k0_pay95 (tileT (rowWord i) x1 x2)) (k0_pay96 x0) (k0_pay97 x0) xo3 := by
  unfold out0_B_3
  rw [View.read_writes_eq_canon _ _ _ (cover0_B_3 c i arg1 harg1 arg2 harg2 arg3 harg3 arg4 harg4 arg5 harg5 hc0 hc1 x0 x1 x2 xo3)]
  unfold kernelRun0_B
  dsimp only
  sl_unfold_words
  rw [View.canon_unit_zero (S := S1x1) hz2]
  simp only [View.readCov_cons_unit_zero (S := S64x8192) _ hz2, View.readCov_cons_unit_zero (S := S1x1) _ hz2,
    View.readCov_unit_zero (S := S64x8192) _ hz2, View.readCov_unit_zero (S := S1x1) _ hz2, View.readAt_eq_ld,
    harg1.read_unread, harg2.read_unread, harg3.read_unread, harg4.read_unread,
    View.ld_unit_zero (S := S64x8192) hz2, View.ld_unit_zero (S := S64x64) hz2, View.ld_unit_zero (S := S1x1) hz2]
  rfl

set_option maxHeartbeats 4000000 in
/-- Last point: that sum, times the final scale. -/
theorem pieceC (c : Dev nD) (i : grid0.Coords) (arg1 : Memref sig .tc .vmem S64x8192 .f32) (harg1 : arg1.IsWhole) (arg2 : Memref sig .tc .vmem S64x64 .i32) (harg2 : arg2.IsWhole) (arg3 : Memref sig .tc .vmem S64x64 .f32) (harg3 : arg3.IsWhole) (arg4 : Memref sig .tc .vmem S1x1 .f32) (harg4 : arg4.IsWhole) (arg5 : Memref sig .tc .vmem S64x8192 .f32) (harg5 : arg5.IsWhole) (hc0 : ¬cond0_0 i) (hc1 : cond0_1 i)
    (x0 : Vec F S64x8192 .f32) (x1 : Vec F S64x64 .i32) (x2 : Vec F S64x64 .f32) (xo3 : Vec F S1x1 .f32) :
    out0_C_3 c i arg1 harg1 arg2 harg2 arg3 harg3 arg4 harg4 arg5 harg5 hc0 hc1 x0 x1 x2 xo3
      = k0_pay1 (k0_pay99 (k0_pay95 (tileT (rowWord i) x1 x2)) (k0_pay96 x0) (k0_pay97 x0) xo3) := by
  unfold out0_C_3
  rw [View.read_writes_eq_canon _ _ _ (cover0_C_3 c i arg1 harg1 arg2 harg2 arg3 harg3 arg4 harg4 arg5 harg5 hc0 hc1 x0 x1 x2 xo3)]
  unfold kernelRun0_C
  dsimp only
  sl_unfold_words
  rw [View.canon_cons_unit_zero (S := S1x1) hz2]
  simp only [View.readCov_cons_unit_zero (S := S64x8192) _ hz2, View.readCov_cons_unit_zero (S := S1x1) _ hz2,
    View.readCov_unit_zero (S := S64x8192) _ hz2, View.readCov_unit_zero (S := S1x1) _ hz2, View.readAt_eq_ld,
    harg1.read_unread, harg2.read_unread, harg3.read_unread, harg4.read_unread,
    View.ld_unit_zero (S := S64x8192) hz2, View.ld_unit_zero (S := S64x64) hz2, View.ld_unit_zero (S := S1x1) hz2]
  rfl

end Cert.KernelIdeal.Tile

end
-- ==== Proof.Spec.lean ====
/-
  The mathematics both programs compute, stated once over the extended reals.

  A ROW of the dense soft-target matrix is built from 64 (index word, score) pairs: start from zero, then for
  k = 0, 1, …, 63 IN THIS ORDER write score k at the column whose 32-bit word equals index word k (a word that is
  no column's word writes nothing; a later k overwrites an earlier one on the same column), and last put 1 on the
  row's own diagonal column. The LOSS OF A ROW with target row T and logit row x is
      Σ_C [tn C > 0] · tn C · (log tn C − ((z C − m) − log Σ_C' exp (z C' − m))),
  where tn = T / max(1e-8, Σ T) is the normalised target, z = x · ½ the logits at temperature 2 and m their maximum.
  The whole result is the sum of the rows' losses times 4 / 8192.

  Two scalar laws join the two programs: a quotient by 2 is the product with ½ on every extended real, and
  S · 2⁻¹¹ = ((0 + S) / 8192) · 4 on every extended real.
-/
import Idealize.ShloMosaic.PureOps.Ideal
import Idealize.ShloMosaic.PureOps.Ideal.Laws

noncomputable section

namespace Cert.KL

open Idealize.ShloMosaic

/-! ## The literals the two programs spell, as extended reals -/

/-- `2.0` denotes the real 2. -/
theorem ofBits_two : Ideal.ofBits .f32 0x40000000#32 = ((2 : ℝ) : EReal) := by
  simp [Ideal.ofBits, Ideal.ieee, -EReal.coe_mul]; norm_num

/-- `0.5` denotes the real 1/2. -/
theorem ofBits_half : Ideal.ofBits .f32 0x3F000000#32 = ((1 / 2 : ℝ) : EReal) := by
  simp [Ideal.ofBits, Ideal.ieee, -EReal.coe_mul]; norm_num

/-- `8192.0` denotes the real 8192. -/
theorem ofBits_8192 : Ideal.ofBits .f32 0x46000000#32 = ((8192 : ℝ) : EReal) := by
  simp [Ideal.ofBits, Ideal.ieee, -EReal.coe_mul]; norm_num

/-- `4.0` denotes the real 4. -/
theorem ofBits_four : Ideal.ofBits .f32 0x40800000#32 = ((4 : ℝ) : EReal) := by
  simp [Ideal.ofBits, Ideal.ieee, -EReal.coe_mul]; norm_num

/-- `4.8828125e-4` denotes the real 1/2048. -/
theorem ofBits_scale : Ideal.ofBits .f32 0x3A000000#32 = ((1 / 2048 : ℝ) : EReal) := by
  simp [Ideal.ofBits, Ideal.ieee, -EReal.coe_mul]; norm_num

/-- The pattern of minus infinity denotes the bottom element. -/
theorem ofBits_ninf : Ideal.ofBits .f32 0xFF800000#32 = (⊥ : EReal) := by
  simp [Ideal.ofBits, Ideal.ieee]

/-! ## One row of the target, and one row's loss -/

/-- One overwrite: column `C` takes `v` when its word is `w`, and keeps `acc` otherwise. -/
def put (C : Fin 8192) (w : BitVec 32) (v acc : EReal) : EReal :=
  if BitVec.ofNat 32 C.val = w then v else acc

/-- Row `R` of the target: zero, the 64 overwrites in order, then 1 on the diagonal. -/
def targetRow (lp : Fin 64 → BitVec 32) (ts : Fin 64 → EReal) (R : ℕ) : Fin 8192 → EReal := fun C =>
  if C.val = R then Ideal.ofBits .f32 0x3F800000#32
  else (List.finRange 64).foldl (fun acc k => put C (lp k) (ts k) acc) (Ideal.ofBits .f32 0x00000000#32)

/-- The clipped row sum the target row is divided by. -/
def rowNorm (T : Fin 8192 → EReal) : EReal := max (Ideal.ofBits .f32 0x322BCC77#32) (∑ C, T C)

/-- The logits at temperature 2. -/
def scaled (x : Fin 8192 → EReal) : Fin 8192 → EReal := fun C => x C * Ideal.ofBits .f32 0x3F000000#32

/-- Their maximum over the row (from minus infinity). -/
def rowMax (x : Fin 8192 → EReal) : EReal :=
  (Finset.univ : Finset (Fin 8192)).fold max (Ideal.ofBits .f32 0xFF800000#32) (scaled x)

/-- The log-softmax of the row at column `C`. -/
def logSoft (x : Fin 8192 → EReal) (C : Fin 8192) : EReal :=
  (scaled x C - rowMax x) - Ideal.log (∑ C', Ideal.exp (scaled x C' - rowMax x))

/-- One entry's contribution: `tn · (log tn − lsm)` where the normalised target `tn` is positive, zero elsewhere. -/
def term (tn lsm : EReal) : EReal :=
  Scalar.select (Ideal.cmp .ogt tn (Ideal.ofBits .f32 0x00000000#32))
    (tn * (Ideal.log (Scalar.select (Ideal.cmp .ogt tn (Ideal.ofBits .f32 0x00000000#32)) tn (Ideal.ofBits .f32 0x3F800000#32)) - lsm))
    (Ideal.ofBits .f32 0x00000000#32)

/-- The loss of one row with target row `T` and logit row `x`. -/
def rowLoss (T x : Fin 8192 → EReal) : EReal :=
  ∑ C, term (Ideal.div (T C) (rowNorm T)) (logSoft x C)

/-! ## The two scalar laws -/

/-- A quotient by the literal 2 is the product with the literal ½, on every extended real. -/
theorem div_two_eq_mul_half (x : EReal) :
    Ideal.div x (Ideal.ofBits .f32 0x40000000#32) = x * Ideal.ofBits .f32 0x3F000000#32 := by
  rw [ofBits_two, ofBits_half, Ideal.div_coe (by norm_num : (2 : ℝ) ≠ 0)]

/-- The kernel's final scale against the reference's: `S · 2⁻¹¹ = ((0 + S) / 8192) · 4`. -/
theorem scale_eq (S : EReal) :
    S * Ideal.ofBits .f32 0x3A000000#32
      = Ideal.div (Ideal.ofBits .f32 0x00000000#32 + S) (Ideal.ofBits .f32 0x46000000#32) * Ideal.ofBits .f32 0x40800000#32 := by
  rw [Ideal.ofBits_zero_f32, zero_add, ofBits_scale, ofBits_8192, ofBits_four, Ideal.div_coe (by norm_num : (8192 : ℝ) ≠ 0),
    mul_assoc, ← EReal.coe_mul]
  norm_num

end Cert.KL

end
-- ==== Proof.KerLoss.lean ====
/-
  The arithmetic of one grid point at the ideal instance: from the target tile T and the logit tile x0 the body adds
  to the running total the sum over the tile's 64 rows of the row loss.
-/
import proofs.«173937_j79267916415457_1_alg».proof.Proof.Gen.KernelIdeal.Skeleton
import proofs.«173937_j79267916415457_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## Indices of the reductions, the keepdims reshapes and the row broadcast -/

theorem lift_row (r : Fin 64) (C : Fin 8192) :
    reduces_S64x8192_S64.lift (ix1 r) C = ix2 r C := by
  funext a; refine Fin.ext ?_
  match a with
  | ⟨0, _⟩ => rfl
  | ⟨1, _⟩ => rfl

theorem lift_col (r : Fin 64) :
    reduces_S64x1_S1.lift (ix1 (0 : Fin 1)) r = ix2 r (0 : Fin 1) := by
  funext a; refine Fin.ext ?_
  match a with
  | ⟨0, _⟩ => rfl
  | ⟨1, _⟩ => rfl

theorem cast_col {α : Type} (v : S64.Idx → α) (r : Fin 64) (u : Fin 1) :
    shapeCast S64x1 v shapeCasts_S64_S64x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

theorem cast_one {α : Type} (v : S1.Idx → α) (u w : Fin 1) :
    shapeCast S1x1 v shapeCasts_S1_S1x1 (ix2 u w) = v (ix1 (0 : Fin 1)) :=
  shapeCast_apply v _ _ _ (by
    have hu : u.val = 0 := by omega
    have hw : w.val = 0 := by omega
    rw [Shape.rowMajor_val_two, Shape.rowMajor_val_one]
    show 0 = u.val * 1 + w.val
    rw [hu, hw])

theorem bcast_row {α : Type} (v : S64x1.Idx → α) (r : Fin 64) (C : Fin 8192) :
    broadcastTo S64x8192 v broadcasts_S64x1_S64x8192 (ix2 r C) = v (ix2 r (0 : Fin 1)) := by
  refine broadcastTo_apply v _ (ix2 r C) (ix2 r (0 : Fin 1)) fun ax => ?_
  match ax with
  | ⟨0, _⟩ => rfl
  | ⟨1, _⟩ => rfl

/-! ## The one index of the 1 × 1 shape -/

theorem idx_one (i : S1x1.Idx) : i = ix2 (0 : Fin 1) (0 : Fin 1) := by
  funext a; refine Fin.ext ?_
  match a with
  | ⟨0, _⟩ => exact Nat.lt_one_iff.mp (i ⟨0, _⟩).isLt
  | ⟨1, _⟩ => exact Nat.lt_one_iff.mp (i ⟨1, _⟩).isLt

/-! ## The three reductions read at an index -/

/-- A row sum kept as a 64 × 1 column, read at row `r`: the sum of the row's 8192 entries. -/
theorem rowSum_at (v : FVec Ideal S64x8192 .f32) (r : Fin 64) (u : Fin 1) :
    shapeCast S64x1 (multiReduction .add [1] S64 v 0x00000000#32 reduces_S64x8192_S64 (.inl rfl) rfl)
        shapeCasts_S64_S64x1 (ix2 r u)
      = ∑ C : Fin 8192, v (ix2 r C) := by
  rw [cast_col]
  refine (Ideal.multiReduction_add_single v _ reduces_S64x8192_S64 _ _ (ix1 r)).trans ?_
  exact Finset.sum_congr rfl fun C _ => congrArg v (lift_row r C)

/-- A row maximum kept as a 64 × 1 column, read at row `r`: the fold of `max` from minus infinity over the row. -/
theorem rowMax_at (v : FVec Ideal S64x8192 .f32) (r : Fin 64) (u : Fin 1) :
    shapeCast S64x1 (multiReduction .maximumf [1] S64 v 0xFF800000#32 reduces_S64x8192_S64 (.inl rfl) rfl)
        shapeCasts_S64_S64x1 (ix2 r u)
      = (Finset.univ : Finset (Fin 8192)).fold max (Ideal.ofBits .f32 0xFF800000#32) (fun C => v (ix2 r C)) := by
  rw [cast_col]
  refine (Ideal.multiReduction_maximumf_single v _ reduces_S64x8192_S64 _ _ (ix1 r)).trans ?_
  have h : (v ∘ reduces_S64x8192_S64.lift (ix1 r)) = fun C => v (ix2 r C) :=
    funext fun C => congrArg v (lift_row r C)
  rw [h]; rfl

/-- The sum of a 64 × 1 column kept as a 1 × 1 value: the sum of its 64 entries. -/
theorem colSum_at (w : FVec Ideal S64x1 .f32) (i : S1x1.Idx) :
    shapeCast S1x1 (multiReduction .add [0] S1 w 0x00000000#32 reduces_S64x1_S1 (.inl rfl) rfl)
        shapeCasts_S1_S1x1 i
      = ∑ r : Fin 64, w (ix2 r (0 : Fin 1)) := by
  rw [idx_one i, cast_one]
  refine (Ideal.multiReduction_add_single w _ reduces_S64x1_S1 _ _ (ix1 (0 : Fin 1))).trans ?_
  exact Finset.sum_congr rfl fun r _ => congrArg w (lift_col r)

/-! ## The normalised target, the scaled logits and their row maximum, at an index -/

/-- The normalised target at row `r`, column `C`: the entry over the clipped sum of its row. -/
theorem pay95_at (T : Vec Ideal S64x8192 .f32) (r : Fin 64) (C : Fin 8192) :
    k0_pay95 (F := Ideal) T (ix2 r C)
      = Ideal.div (T (ix2 r C)) (Cert.KL.rowNorm fun C' => (T (ix2 r C') : EReal)) := by
  unfold k0_pay95
  refine (divf_apply _ _ _).trans ?_
  rw [bcast_row]
  refine congrArg (Ideal.div (T (ix2 r C))) ?_
  refine (maximumf_apply _ _ _).trans ?_
  rw [rowSum_at]
  rfl

/-- The scaled logits at row `r`, column `C`. -/
theorem pay96_at (x0 : Vec Ideal S64x8192 .f32) (r : Fin 64) (C : Fin 8192) :
    k0_pay96 (F := Ideal) x0 (ix2 r C) = Cert.KL.scaled (fun C' => (x0 (ix2 r C') : EReal)) C := rfl

/-- The row maximum of the scaled logits, at row `r`. -/
theorem pay97_at (x0 : Vec Ideal S64x8192 .f32) (r : Fin 64) (u : Fin 1) :
    k0_pay97 (F := Ideal) x0 (ix2 r u) = Cert.KL.rowMax (fun C' => (x0 (ix2 r C') : EReal)) := by
  unfold k0_pay97
  refine (rowMax_at _ r u).trans ?_
  rfl

/-! ## The body's loss over arbitrary normalised target, logits and row maxima -/

/-- The logits less their row's maximum, at an index. -/
theorem shift_at (z : FVec Ideal S64x8192 .f32) (m : FVec Ideal S64x1 .f32) (r : Fin 64) (C : Fin 8192) :
    subf z (broadcastTo S64x8192 m broadcasts_S64x1_S64x8192) (ix2 r C) = z (ix2 r C) - m (ix2 r (0 : Fin 1)) := by
  refine (subf_apply _ _ _).trans ?_
  rw [bcast_row]

/-- The logarithm of a row's sum of exponentials, at row `r`. -/
theorem lse_at (d : FVec Ideal S64x8192 .f32) (r : Fin 64) (u : Fin 1) :
    log (shapeCast S64x1 (multiReduction .add [1] S64 (exp d) 0x00000000#32 reduces_S64x8192_S64 (.inl rfl) rfl)
        shapeCasts_S64_S64x1) (ix2 r u)
      = Ideal.log (∑ C : Fin 8192, Ideal.exp (d (ix2 r C))) := by
  show Ideal.log (shapeCast S64x1 (multiReduction .add [1] S64 (exp d) 0x00000000#32 reduces_S64x8192_S64 (.inl rfl) rfl)
        shapeCasts_S64_S64x1 (ix2 r u)) = _
  rw [rowSum_at]
  rfl

/-- One entry of the masked product, at an index: the specification's term. -/
theorem term_at (tn d : FVec Ideal S64x8192 .f32) (l : FVec Ideal S64x1 .f32) (r : Fin 64) (C : Fin 8192) :
    select (cmpf .ogt tn (broadcast S64x8192 (Scalar.ofBits .f32 0x00000000#32)))
        (mulf tn (subf (log (select (cmpf .ogt tn (broadcast S64x8192 (Scalar.ofBits .f32 0x00000000#32))) tn
            (broadcast S64x8192 (Scalar.ofBits .f32 0x3F800000#32))))
          (subf d (broadcastTo S64x8192 l broadcasts_S64x1_S64x8192))))
        (broadcast S64x8192 (Scalar.ofBits .f32 0x00000000#32)) (ix2 r C)
      = Cert.KL.term (tn (ix2 r C)) (d (ix2 r C) - l (ix2 r (0 : Fin 1))) := by
  rw [← bcast_row l r C]
  rfl

/-- The body's new running total over arbitrary normalised target `tn`, logits `z` and row maxima `m`: the old total
    plus, summed over the 64 rows and the 8192 columns, the term of `tn` against the log-softmax built from `z` and `m`. -/
theorem pay99_eq (tn z : FVec Ideal S64x8192 .f32) (m : FVec Ideal S64x1 .f32) (o : Vec Ideal S1x1 .f32) :
    k0_pay99 (F := Ideal) tn z m o
      = fun _ => (o (ix2 0 0) : EReal) + ∑ r : Fin 64, ∑ C : Fin 8192,
          Cert.KL.term (tn (ix2 r C))
            ((z (ix2 r C) - m (ix2 r (0 : Fin 1)))
              - Ideal.log (∑ C' : Fin 8192, Ideal.exp (z (ix2 r C') - m (ix2 r (0 : Fin 1))))) := by
  funext i
  obtain rfl : i = ix2 (0 : Fin 1) (0 : Fin 1) := idx_one i
  unfold k0_pay99
  refine (addf_apply _ _ _).trans ?_
  rw [shapeCast_self, colSum_at]
  refine congrArg (fun t : EReal => (o (ix2 0 0) : EReal) + t) ?_
  refine Finset.sum_congr rfl fun r _ => ?_
  rw [rowSum_at]
  refine Finset.sum_congr rfl fun C _ => ?_
  rw [term_at, lse_at, shift_at]
  refine congrArg (fun s : EReal => Cert.KL.term (tn (ix2 r C)) ((z (ix2 r C) - m (ix2 r (0 : Fin 1))) - Ideal.log s)) ?_
  exact Finset.sum_congr rfl fun C' _ => congrArg Ideal.exp (shift_at z m r C')

/-- One grid point's arithmetic: the running total plus the sum over the tile's 64 rows of the row loss. -/
theorem tileLoss_eq (T x0 : Vec Ideal S64x8192 .f32) (o : Vec Ideal S1x1 .f32) :
    k0_pay99 (F := Ideal) (k0_pay95 (F := Ideal) T) (k0_pay96 (F := Ideal) x0) (k0_pay97 (F := Ideal) x0) o
      = fun _ => (o (ix2 0 0) : EReal) + ∑ r : Fin 64, Cert.KL.rowLoss (fun C => (T (ix2 r C) : EReal)) (fun C => (x0 (ix2 r C) : EReal)) := by
  rw [pay99_eq]
  funext _
  refine congrArg (fun t : EReal => (o (ix2 0 0) : EReal) + t) ?_
  refine Finset.sum_congr rfl fun r _ => ?_
  unfold Cert.KL.rowLoss
  refine Finset.sum_congr rfl fun C _ => ?_
  rw [pay95_at, pay97_at]
  rfl

/-- The first grid point's initial total is zero. -/
theorem pay98_eq : k0_pay98 (F := Ideal) = fun _ => (0 : EReal) := by
  funext i
  exact Ideal.ofBits_zero_f32

/-- The last grid point's result: the total times the literal scale. -/
theorem pay1_eq (v : Vec Ideal S1x1 .f32) :
    k0_pay1 (F := Ideal) v = fun _ => (v (ix2 0 0) : EReal) * Ideal.ofBits .f32 0x3A000000#32 := by
  funext i
  obtain rfl : i = ix2 (0 : Fin 1) (0 : Fin 1) := idx_one i
  unfold k0_pay1
  refine (mulf_apply _ _ _).trans ?_
  rw [shapeCast_self]
  rfl

end Cert.KernelIdeal.Tile

end
-- ==== Proof.KerBlocks.lean ====
/-
  The input blocks of the kernel's three windows read at an index. The grid has 128 points; at point t each window's
  block is rows 64·t … 64·t + 63 of its array (all 8192 columns of the logits, all 64 columns of the local positions
  and of the scores), so entry (r, C) of a block is entry (64·t + r, C) of the array.
-/
import proofs.«173937_j79267916415457_1_alg».proof.Proof.Gen.KernelIdeal.Frame
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid coordinate of point t is t. -/
theorem coord_val : ∀ t : Fin cfg0.N, (grid0.coords t 0).val = t.val :=
  (by decide +kernel : ∀ t : Fin grid0.N, (grid0.coords t 0).val = t.val)

/-- The input windows' index maps: block row t, block column 0. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Global row 64·t + r. -/
def grow (t : Fin cfg0.N) (r : Fin 64) : Fin 8192 :=
  ⟨64 * t.val + r.val, by have := lt_of_lt_of_eq t.isLt (show cfg0.N = 128 from N_0); have := r.isLt; omega⟩

/-- The blocks and arrays at their literal types. -/
abbrev xblk (c : Dev nD) (t : Fin cfg0.N) : Vec F S64x8192 .f32 := iblk m c 0 t
abbrev lblk (c : Dev nD) (t : Fin cfg0.N) : Vec F S64x64 .i32 := iblk m c 1 t
abbrev sblk (c : Dev nD) (t : Fin cfg0.N) : Vec F S64x64 .f32 := iblk m c 2 t
abbrev xarr (c : Dev nD) : Vec F S8192x8192 .f32 := V m c main_arg0
abbrev larr (c : Dev nD) : Vec F S8192x64 .i32 := V m c main_v16
abbrev sarr (c : Dev nD) : Vec F S8192x64 .f32 := V m c main_arg1

theorem xblk_apply (c : Dev nD) (t : Fin cfg0.N) (r : Fin 64) (C : Fin 8192) :
    xblk m c t (ix2 r C) = xarr m c (ix2 (grow t r) C) := by
  unfold xblk xarr iblk
  rw [View.read_apply]
  show V m c main_arg0 _ = V m c main_arg0 _
  congr 1
  funext a
  apply Fin.ext
  match a with
  | ⟨0, _⟩ => show win0_0.index t 0 * 64 + 1 * r.val = 64 * t.val + r.val; rw [(idx_in t).1]; omega
  | ⟨1, _⟩ => show win0_0.index t 1 * 8192 + 1 * C.val = C.val; rw [(idx_in t).2.1]; omega

theorem lblk_apply (c : Dev nD) (t : Fin cfg0.N) (r : Fin 64) (k : Fin 64) :
    lblk m c t (ix2 r k) = larr m c (ix2 (grow t r) k) := by
  unfold lblk larr iblk
  rw [View.read_apply]
  show V m c main_v16 _ = V m c main_v16 _
  congr 1
  funext a
  apply Fin.ext
  match a with
  | ⟨0, _⟩ => show win0_1.index t 0 * 64 + 1 * r.val = 64 * t.val + r.val; rw [(idx_in t).2.2.1]; omega
  | ⟨1, _⟩ => show win0_1.index t 1 * 64 + 1 * k.val = k.val; rw [(idx_in t).2.2.2.1]; omega

theorem sblk_apply (c : Dev nD) (t : Fin cfg0.N) (r : Fin 64) (k : Fin 64) :
    sblk m c t (ix2 r k) = sarr m c (ix2 (grow t r) k) := by
  unfold sblk sarr iblk
  rw [View.read_apply]
  show V m c main_arg1 _ = V m c main_arg1 _
  congr 1
  funext a
  apply Fin.ext
  match a with
  | ⟨0, _⟩ => show win0_2.index t 0 * 64 + 1 * r.val = 64 * t.val + r.val; rw [(idx_in t).2.2.2.2.1]; omega
  | ⟨1, _⟩ => show win0_2.index t 1 * 64 + 1 * k.val = k.val; rw [(idx_in t).2.2.2.2.2]; omega

end Cert.KernelIdeal.Tile

end
-- ==== Proof.KerTargetIdx.lean ====
/-
  The kernel's target tile read at an index: row r, column C of the tile at the grid point whose rows start at
  64 · n is entry C of the target row built from row r of the tile's index words and scores, with diagonal 64 · n + r.
-/
import proofs.«173937_j79267916415457_1_alg».proof.Proof.KerTarget
import proofs.«173937_j79267916415457_1_alg».proof.Proof.Spec
import Idealize.ShloMosaic.Lib.ValueIdx
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- A select on an equality comparison of two words is the `if` on their equality. -/
theorem select_cmpiEq {α : Type} (x y : BitVec 32) (a b : α) :
    Scalar.select (IntOp.cmpi .eq x y) a b = if x = y then a else b := by
  unfold Scalar.select IntOp.cmpi
  by_cases h : x = y
  · rw [if_pos h, if_pos]; subst h; simp
  · have hb : (x == y) = false := by simpa using h
    rw [if_neg h, if_neg]
    first
      | (simp [h]; done)
      | (show ¬ BitVec.ofBool (x == y) = 1#1; rw [hb]; decide)

/-- The iota along the columns reads the column's word. -/
theorem iotaCol_apply (r : Fin 64) (C : Fin 8192) :
    iota .tc S64x8192 32 [1] iota_S64x8192_d1_w32 (ix2 r C) = BitVec.ofNat 32 C.val := by
  unfold iota
  simp only [List.foldl_cons, List.foldl_nil, Nat.zero_mul, Nat.zero_add]

/-- The iota along the rows of a 64 × 1 block reads the row's word. -/
theorem iotaRow_apply (r : Fin 64) :
    iota .tc S64x1 32 [0] iota_S64x1_d0_w32 (ix2 r (0 : Fin 1)) = BitVec.ofNat 32 r.val := by
  unfold iota
  simp only [List.foldl_cons, List.foldl_nil, Nat.zero_mul, Nat.zero_add]

/-- Column `k` of a 64 × 64 tile, read at row `r`. -/
theorem sliceCol_apply {α : Type} (k : Fin 64) (x : S64x64.Idx → α) (r : Fin 64) :
    extractStridedSlice S64x1 ![0, k.val] x (slicesCol k) (ix2 r (0 : Fin 1)) = x (ix2 r k) := by
  refine extractStridedSlice_apply _ x _ _ _ fun a => ?_
  match a with
  | ⟨0, _⟩ => simp
  | ⟨1, _⟩ => simp

/-- A 64 × 1 block broadcast along the columns reads its row's entry. -/
theorem bcastCol_apply {α : Type} (v : S64x1.Idx → α) (r : Fin 64) (C : Fin 8192) :
    broadcastTo S64x8192 v broadcasts_S64x1_S64x8192 (ix2 r C) = v (ix2 r (0 : Fin 1)) := by
  refine broadcastTo_apply v _ _ _ fun a => ?_
  match a with
  | ⟨0, _⟩ => simp
  | ⟨1, _⟩ => simp

/-- One overwrite read at an entry. -/
theorem stage_apply (k : Fin 64) (lpw : IVec S64x64 32) (ts : Vec Ideal S64x64 .f32) (prev : Vec Ideal S64x8192 .f32)
    (r : Fin 64) (C : Fin 8192) :
    stage (F := Ideal) k lpw ts prev (ix2 r C)
      = Cert.KL.put C (lpw (ix2 r k)) (ts (ix2 r k)) (prev (ix2 r C)) := by
  unfold stage Cert.KL.put
  rw [shapeCast_self, select_apply]
  unfold cmpi
  rw [select_cmpiEq, iotaCol_apply, bcastCol_apply, bcastCol_apply, sliceCol_apply, shapeCast_self, sliceCol_apply]

/-- The 64 overwrites read at an entry: the fold of the single-entry overwrites from the entry's starting value. -/
theorem foldl_stage_apply (lpw : IVec S64x64 32) (ts : Vec Ideal S64x64 .f32) (r : Fin 64) (C : Fin 8192) :
    ∀ (L : List (Fin 64)) (a : FVec Ideal S64x8192 .f32),
      (L.foldl (fun acc k => stage (F := Ideal) k lpw ts acc) a) (ix2 r C)
        = L.foldl (fun acc k => Cert.KL.put C (lpw (ix2 r k)) (ts (ix2 r k)) acc) (a (ix2 r C))
  | [], _ => rfl
  | k :: L, a => by
    rw [List.foldl_cons, List.foldl_cons, foldl_stage_apply lpw ts r C L, stage_apply]

/-- The loaded index words, recast to their own shape, are themselves. -/
theorem pay3_apply (x1 : Vec Ideal S64x64 .i32) (r k : Fin 64) : k0_pay3 (F := Ideal) x1 (ix2 r k) = x1 (ix2 r k) := by
  unfold k0_pay3
  rw [shapeCast_self]

/-- The zero tile reads zero everywhere. -/
theorem pay2_apply (r : Fin 64) (C : Fin 8192) :
    k0_pay2 (F := Ideal) (ix2 r C) = Ideal.ofBits .f32 0x00000000#32 := by
  unfold k0_pay2
  rw [shapeCast_self]
  rfl

/-- For a tile among the first 128 the diagonal's word test is the test on the numbers: nothing wraps below 2 ^ 32. -/
theorem diag_iff (n : ℕ) (hn : n < 128) (r : Fin 64) (C : Fin 8192) :
    BitVec.ofNat 32 C.val = Scalar.muli (BitVec.ofNat 32 n) 64#32 + BitVec.ofNat 32 r.val ↔ C.val = 64 * n + r.val := by
  unfold Scalar.muli IntOp.muli
  rw [← BitVec.toNat_inj, BitVec.toNat_add, BitVec.toNat_mul, BitVec.toNat_ofNat, BitVec.toNat_ofNat, BitVec.toNat_ofNat,
    BitVec.toNat_ofNat]
  have hC := C.isLt
  have hr := r.isLt
  omega

/-- The diagonal step read at an entry. -/
theorem pay94_apply (v0 : BitVec 32) (prev : Vec Ideal S64x8192 .f32) (r : Fin 64) (C : Fin 8192) :
    k0_pay94 (F := Ideal) v0 (iota .tc S64x8192 32 [1] iota_S64x8192_d1_w32) prev (ix2 r C)
      = if BitVec.ofNat 32 C.val = v0 + BitVec.ofNat 32 r.val then Ideal.ofBits .f32 0x3F800000#32 else prev (ix2 r C) := by
  unfold k0_pay94
  dsimp only
  rw [shapeCast_self, select_apply]
  unfold cmpi
  rw [select_cmpiEq, iotaCol_apply, bcastCol_apply]
  unfold addi
  rw [iotaRow_apply]
  rfl

theorem tileT_apply (n : ℕ) (hn : n < 128) (x1 : Vec Ideal S64x64 .i32) (x2 : Vec Ideal S64x64 .f32) (r : Fin 64) (C : Fin 8192) :
    tileT (F := Ideal) (Scalar.muli (BitVec.ofNat 32 n) 64#32) x1 x2 (ix2 r C)
      = Cert.KL.targetRow (fun k => x1 (ix2 r k)) (fun k => (x2 (ix2 r k) : EReal)) (64 * n + r.val) C := by
  unfold tileT Cert.KL.targetRow
  rw [pay94_apply, foldl_stage_apply, pay2_apply, cols_eq]
  simp only [pay3_apply, diag_iff n hn r C]

end Cert.KernelIdeal.Tile

end
-- ==== Proof.KerRun.lean ====
/-
  The kernel's program, run, as one scalar of its arguments.

  The grid has 128 points; point t handles the 64 global rows 64 t, …, 64 t + 63. Row r of the point's target tile is
  the target row of global row 64 t + r (the 64 ordered overwrites from row 64 t + r of the local positions and of the
  scores, then 1 on column 64 t + r), and the point adds to the running total the sum of its 64 rows' losses. So
  after point n the 1 × 1 output block holds 0 + Σ_{s ≤ n} (the loss of tile s); the last point multiplies by the
  final scale. The block is written back once, after the last point, and covers the 1 × 1 array; the reshape after the
  region hands the scalar on. The 8192 rows are the 128 tiles' 64 rows, so the total is the sum over all rows.
-/
import proofs.«173937_j79267916415457_1_alg».proof.Proof.KerPiece
import proofs.«173937_j79267916415457_1_alg».proof.Proof.KerLoss
import proofs.«173937_j79267916415457_1_alg».proof.Proof.KerBlocks
import proofs.«173937_j79267916415457_1_alg».proof.Proof.KerTargetIdx
import proofs.«173937_j79267916415457_1_alg».proof.Proof.Spec
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The loss of global row R, over the arrays as the region finds them. -/
def rowLossAt (c : Dev nD) (R : Fin 8192) : EReal :=
  Cert.KL.rowLoss (Cert.KL.targetRow (fun k => larr m c (ix2 R k)) (fun k => (sarr m c (ix2 R k) : EReal)) R.val)
    (fun C => (xarr m c (ix2 R C) : EReal))

/-- The loss of the 64 rows of the tile at point t. -/
def tileSum (c : Dev nD) (t : Fin cfg0.N) : EReal := ∑ r : Fin 64, rowLossAt m c (grow t r)

theorem rowWord_coords (t : Fin cfg0.N) : rowWord (grid0.coords t) = Scalar.muli (BitVec.ofNat 32 t.val) 64#32 :=
  congrArg (fun n : ℕ => Scalar.muli (BitVec.ofNat 32 n) 64#32) (coord_val t)

/-- Row r of the target tile at point t is the target row of global row 64 t + r. -/
theorem tile_target (c : Dev nD) (t : Fin cfg0.N) (r : Fin 64) (C : Fin 8192) :
    tileT (F := Ideal) (rowWord (grid0.coords t)) (lblk m c t) (sblk m c t) (ix2 r C)
      = Cert.KL.targetRow (fun k => larr m c (ix2 (grow t r) k)) (fun k => (sarr m c (ix2 (grow t r) k) : EReal)) (grow t r).val C := by
  have h := tileT_apply t.val (lt_of_lt_of_eq t.isLt N_0) (lblk m c t) (sblk m c t) r C
  rw [← rowWord_coords t] at h
  refine h.trans ?_
  have e1 : (fun k => lblk m c t (ix2 r k)) = fun k => larr m c (ix2 (grow t r) k) := funext fun k => lblk_apply m c t r k
  have e2 : (fun k => (sblk m c t (ix2 r k) : EReal)) = fun k => (sarr m c (ix2 (grow t r) k) : EReal) := funext fun k => sblk_apply m c t r k
  rw [e1, e2]
  rfl

theorem tile_value (c : Dev nD) (t : Fin cfg0.N) (o : Vec Ideal S1x1 .f32) :
    k0_pay99 (F := Ideal) (k0_pay95 (F := Ideal) (tileT (F := Ideal) (rowWord (grid0.coords t)) (lblk m c t) (sblk m c t)))
        (k0_pay96 (F := Ideal) (xblk m c t)) (k0_pay97 (F := Ideal) (xblk m c t)) o
      = fun _ => (o (ix2 0 0) : EReal) + tileSum m c t := by
  refine (tileLoss_eq (tileT (F := Ideal) (rowWord (grid0.coords t)) (lblk m c t) (sblk m c t)) (xblk m c t) o).trans ?_
  funext _
  refine congrArg (fun s : EReal => (o (ix2 0 0) : EReal) + s) ?_
  refine Finset.sum_congr rfl fun r _ => ?_
  exact congrArg₂ Cert.KL.rowLoss (funext fun C => tile_target m c t r C) (funext fun C => xblk_apply m c t r C)

/-- The loss of tile number n (zero beyond the grid). -/
def ts (c : Dev nD) (n : ℕ) : EReal := if h : n < cfg0.N then tileSum m c ⟨n, h⟩ else 0

/-- The running total after point n. -/
def acc (c : Dev nD) : ℕ → EReal
  | 0 => 0 + ts m c 0
  | n + 1 => acc c n + ts m c (n + 1)

theorem acc_eq (c : Dev nD) : ∀ n, acc m c n = ∑ s ∈ Finset.range (n + 1), ts m c s
  | 0 => by simp [acc]
  | n + 1 => by rw [acc, acc_eq c n, Finset.sum_range_succ _ (n + 1)]

theorem outs_below (c : Dev nD) : ∀ (n : ℕ) (h : n < cfg0.N), n < 127 → outsAt0 m c n h = fun _ => acc m c n
  | 0, h, _ => by
    have hA1 : ¬ (⟨0, h⟩ : Fin cfg0.N).val % 128 = 127 := by dsimp only; omega
    rw [outsAt0_A m c ⟨0, h⟩ rfl hA1, pieceA]
    refine (tile_value m c ⟨0, h⟩ (k0_pay98 (F := Ideal))).trans ?_
    funext _
    rw [pay98_eq]
    show (0 : EReal) + tileSum m c ⟨0, h⟩ = 0 + ts m c 0
    rw [ts, dif_pos h]
  | n + 1, h, hlt => by
    have hB0 : ¬ (⟨n + 1, h⟩ : Fin cfg0.N).val % 128 = 0 := by dsimp only; omega
    have hB1 : ¬ (⟨n + 1, h⟩ : Fin cfg0.N).val % 128 = 127 := by dsimp only; omega
    rw [outsAt0_B m c ⟨n + 1, h⟩ hB0 hB1, pieceB]
    refine (tile_value m c ⟨n + 1, h⟩ _).trans ?_
    funext _
    show (outsAt0 m c n _ (ix2 0 0) : EReal) + tileSum m c ⟨n + 1, h⟩ = acc m c n + ts m c (n + 1)
    rw [outs_below c n (Nat.lt_of_succ_lt h) (by omega), ts, dif_pos h]

theorem outs_last (c : Dev nD) (h : 127 < cfg0.N) :
    outsAt0 m c 127 h = fun _ => acc m c 127 * Ideal.ofBits .f32 0x3A000000#32 := by
  have hC0 : ¬ (⟨127, h⟩ : Fin cfg0.N).val % 128 = 0 := by dsimp only; omega
  rw [outsAt0_C m c ⟨127, h⟩ hC0 rfl, pieceC, pay1_eq]
  funext _
  refine congrArg (fun s : EReal => s * Ideal.ofBits .f32 0x3A000000#32) ?_
  refine (congrFun (tile_value m c ⟨127, h⟩ _) (ix2 0 0)).trans ?_
  show (outsAt0 m c 126 _ (ix2 0 0) : EReal) + tileSum m c ⟨127, h⟩ = acc m c 126 + ts m c 127
  rw [outs_below m c 126 _ (by decide), ts, dif_pos h]

/-- The 8192 rows are the 128 tiles' 64 rows: global row 64 t + r. -/
theorem acc_total (c : Dev nD) : acc m c 127 = ∑ R : Fin 8192, rowLossAt m c R := by
  have hN : cfg0.N = 128 := N_0
  rw [acc_eq, Finset.sum_range]
  rw [← (finProdFinEquiv : Fin 128 × Fin 64 ≃ Fin 8192).sum_comp (rowLossAt m c), Fintype.sum_prod_type]
  refine Finset.sum_congr rfl fun i _ => ?_
  have hi : i.val < cfg0.N := by rw [hN]; exact i.isLt
  rw [ts, dif_pos hi]
  unfold tileSum
  refine Finset.sum_congr rfl fun r _ => ?_
  refine congrArg (rowLossAt m c) (Fin.ext ?_)
  show 64 * i.val + r.val = r.val + 64 * i.val
  omega

/-- The kernel's scalar: the sum of all rows' losses times the final scale. -/
def total (c : Dev nD) : EReal := (∑ R : Fin 8192, rowLossAt m c R) * Ideal.ofBits .f32 0x3A000000#32

/-- The 1 × 1 result array after the run. -/
abbrev result (c : Dev nD) : Buf (Elt Ideal) ((c : Thread nD τ).loc main_v17) := fun _ => total m c

theorem flushed_eq (c : Dev nD) (t : Fin cfg0.N) (hf : (cfg0.win 3).flush t = true) :
    (dats m 0 c).flushed 3 t = ((cfg0.win 3).blk t).view.read (Elt Ideal) (result m c) := by
  have hN : cfg0.N = 128 := N_0
  have h127 : t.val = 127 := by have := (flush0_3 t).mp hf; have := t.isLt; omega
  obtain ⟨n, hn⟩ := t
  dsimp only at h127
  subst h127
  show (cfg0.win 3).cut (grid0.coords ⟨127, hn⟩) ((dats m 0 c).after 3 ⟨127, hn⟩) = _
  rw [after0_3, outs_last, acc_total]
  rfl

/-- The last grid point. -/
abbrev tLast : Fin cfg0.N := ⟨127, lt_of_lt_of_eq (by decide : 127 < 128) N_0.symm⟩

/-- The one write-back, at the last point, covers the 1 × 1 array: it ends holding the scalar. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v17).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The reshape after the region hands the scalar on. -/
theorem tail_eq (c : Dev nD) :
    Pipeline.afterTail₀ cfgs (dats m) 0 (V0 m) [hostOps1] c main_v18 = fun _ => total m c := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.tc.devRef main_v17)
      = result m c := (Pipeline.withArrays_arr spec0 launch0.win.arr_inj c _ _ 3).trans (final_o m c)
  rw [hw]
  rfl

/-- The kernel's program, run: the result buffer ends at the scalar, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tile

end
-- ==== Proof.KerGlue.lean ====
/-
  The local positions the kernel's region finds are the reference's: before the region the kernel's program applies to
  the batch indices and the teacher indices the very operations the reference applies (the global-to-local table by a
  scatter, the clamp, the index normalisation, the gather), so the array of local positions is the same function of the
  two integer arguments on both sides.
-/
import proofs.«173937_j79267916415457_1_alg».proof.Proof.Gen.KernelIdeal.Frame
import proofs.«173937_j79267916415457_1_alg».proof.Proof.RefStages
import Idealize.ShloMosaic.Lib.StableHlo.Run

noncomputable section

namespace Cert.KernelIdeal.Tile

open Cert.KernelIdeal Cert.KernelIdeal.Gen Idealize.ShloMosaic Idealize.ShloMosaic.TcCoe Idealize.SL.Sem Idealize.ShloMosaic.StableHlo

theorem localPos_eq (m : (ℓ : Loc nD τ sig) → Buf (Elt Ideal) ℓ) (c : Dev nD) :
    V m c main_v16
      = Cert.ReferenceIdeal.ReadP.val_main_v16 (F := Ideal) (m ((c.tc : Thread nD τ).loc main_arg2)) (m ((c.tc : Thread nD τ).loc main_arg3)) := by
  dsimp only [V, V0]
  simp only [hostOps0, hostOps0_1, hostOps0_2, List.flatten_cons, List.flatten_nil, List.append_nil, List.cons_append,
    List.nil_append]
  after_results_simp
  rfl

end Cert.KernelIdeal.Tile

end
-- ==== Proof.Overwrite.lean ====
/-
  Ordered overwrites, and a scatter with the "set" body read at one entry.

  Start from a value `a` and run through the indices 0, 1, …, N − 1 in order, replacing the value by `u n` at every
  index `n` that HITS (`p n`). The result is `u n` for the LAST index that hits, and `a` when none does. That
  property ("last hit") determines the result, so two such runs over different index sets agree as soon as one
  set embeds in the other in order, the embedding reaching every hit, with the same hits and the same values.

  A scatter whose body returns the update, read at one entry `i` of the operand, is such a run over the update
  indices in row-major order: update `n` hits when the entry it lands on is `i`.
-/
import Mathlib.Data.List.Range
import Mathlib.Order.Fin.Basic
import Idealize.ShloMosaic.PureOps.ShapeOps

namespace Cert.KL

/-- `v` is the value of the last index that hits, or `a` when none hits. -/
def LastHit {N : ℕ} {α : Type} (p : Fin N → Prop) (u : Fin N → α) (a v : α) : Prop :=
  (∃ n, p n ∧ v = u n ∧ ∀ n', n < n' → ¬ p n') ∨ ((∀ n, ¬ p n) ∧ v = a)

/-- The run over 0, …, N − 1 has the last-hit property. -/
theorem lastHit_foldl {α : Type} : ∀ (N : ℕ) (p : Fin N → Prop) [DecidablePred p] (u : Fin N → α) (a : α),
    LastHit p u a ((List.finRange N).foldl (fun acc n => if p n then u n else acc) a)
  | 0, p, _, u, a => Or.inr ⟨fun n => n.elim0, by simp⟩
  | N + 1, p, _, u, a => by
    have ih := lastHit_foldl N (fun n => p n.castSucc) (fun n => u n.castSucc) a
    rw [List.finRange_succ_last, List.foldl_append, List.foldl_map]
    simp only [List.foldl_cons, List.foldl_nil]
    by_cases hp : p (Fin.last N)
    · rw [if_pos hp]
      exact Or.inl ⟨Fin.last N, hp, rfl, fun n' h => absurd (Fin.le_last n') (not_le.mpr h)⟩
    · rw [if_neg hp]
      rcases ih with ⟨n, hpn, hv, hl⟩ | ⟨hnone, hv⟩
      · refine Or.inl ⟨n.castSucc, hpn, hv, fun n' h => ?_⟩
        induction n' using Fin.lastCases with
        | last => exact hp
        | cast m => exact hl m (Fin.castSucc_lt_castSucc_iff.mp h)
      · refine Or.inr ⟨fun n => ?_, hv⟩
        induction n using Fin.lastCases with
        | last => exact hp
        | cast m => exact hnone m

/-- The last-hit property determines the value. -/
theorem LastHit.unique {N : ℕ} {α : Type} {p : Fin N → Prop} {u : Fin N → α} {a v v' : α}
    (h : LastHit p u a v) (h' : LastHit p u a v') : v = v' := by
  rcases h with ⟨n, hpn, hv, hl⟩ | ⟨hnone, hv⟩ <;> rcases h' with ⟨n', hpn', hv', hl'⟩ | ⟨hnone', hv'⟩
  · have e : n = n' := by
      rcases lt_trichotomy n n' with h | h | h
      · exact absurd hpn' (hl n' h)
      · exact h
      · exact absurd hpn (hl' n h)
    subst e; rw [hv, hv']
  · exact absurd hpn (hnone' n)
  · exact absurd hpn' (hnone n')
  · rw [hv, hv']

/-- The property moves along an order embedding that reaches every hit and keeps hits and values. -/
theorem LastHit.of_embed {N M : ℕ} {α : Type} (e : Fin M → Fin N) (he : StrictMono e)
    {p : Fin N → Prop} {p' : Fin M → Prop} {u : Fin N → α} {u' : Fin M → α}
    (hp : ∀ k, p (e k) ↔ p' k) (hu : ∀ k, u (e k) = u' k) (hsurj : ∀ n, p n → ∃ k, n = e k) {a v : α}
    (h : LastHit p' u' a v) : LastHit p u a v := by
  rcases h with ⟨k, hpk, hv, hl⟩ | ⟨hnone, hv⟩
  · refine Or.inl ⟨e k, (hp k).2 hpk, hv.trans (hu k).symm, fun n' hlt hpn' => ?_⟩
    obtain ⟨k', rfl⟩ := hsurj n' hpn'
    exact hl k' (he.lt_iff_lt.mp hlt) ((hp k').1 hpn')
  · refine Or.inr ⟨fun n hpn => ?_, hv⟩
    obtain ⟨k, rfl⟩ := hsurj n hpn
    exact hnone k ((hp k).1 hpn)

/-- So a run over a larger index set equals the run over the smaller one it embeds. -/
theorem foldl_eq_of_embed {N M : ℕ} {α : Type} (e : Fin M → Fin N) (he : StrictMono e)
    (p : Fin N → Prop) [DecidablePred p] (p' : Fin M → Prop) [DecidablePred p'] (u : Fin N → α) (u' : Fin M → α)
    (hp : ∀ k, p (e k) ↔ p' k) (hu : ∀ k, u (e k) = u' k) (hsurj : ∀ n, p n → ∃ k, n = e k) (a : α) :
    (List.finRange N).foldl (fun acc n => if p n then u n else acc) a
      = (List.finRange M).foldl (fun acc k => if p' k then u' k else acc) a :=
  (lastHit_foldl N p u a).unique ((lastHit_foldl M p' u' a).of_embed e he hp hu hsurj)

open Idealize.ShloMosaic in
/-- A scatter whose body returns the update, read at the entry `i`: the run over the update indices in row-major
    order, update `n` hitting when it lands on `i`. -/
theorem scatter_set_apply {α : Type} {s si u : Shape} {w : ℕ} (d : ScatterDims s si u) (x : s.Idx → α) (idx : IVec si w)
    (upd : u.Idx → α) (i : s.Idx) :
    Host.scatter d (fun _ b => b) x idx upd i
      = (List.finRange u.numel).foldl
          (fun acc n => if d.resultIdx? (u.rowMajor.symm n) idx = some i then upd (u.rowMajor.symm n) else acc) (x i) := by
  unfold Host.scatter
  generalize List.finRange u.numel = L
  induction L generalizing x with
  | nil => rfl
  | cons n L ih =>
    rw [List.foldl_cons, List.foldl_cons, ih]
    congr 1
    cases hr : d.resultIdx? (u.rowMajor.symm n) idx with
    | none => simp
    | some j =>
      by_cases hij : i = j
      · subst hij; simp
      · have : ¬ (some j = some i) := fun h => hij (Option.some.inj h).symm
        simp [hij, this]

end Cert.KL
-- ==== Proof.RefTarget.lean ====
/-
  The reference's dense target matrix read at an index: entry (R, C) is entry C of the target row built from row R
  of the local positions and of the scores, with diagonal R.

  The matrix is built by two scatters whose body returns the update. Read at the entry (R, C), such a scatter is the
  ordered run over its updates, an update hitting when the entry it lands on is (R, C); an update lands on the entry
  whose coordinates are its two index words read as signed numbers, and is dropped when those leave the matrix.
  * The second scatter writes 1 at (n, n) for every n (its index words are n's word twice: the normalisation leaves a
    word below 8192 alone), so it turns the entry into 1 when C = R and keeps the first scatter's entry otherwise.
  * The first scatter's update (r, k) has row word r and column word: the position word lp (r, k) when that is
    non-negative as a signed number, else 8192; neither is changed by the normalisation. It hits (R, C) exactly when
    r = R and the word of C is lp (r, k): a negative position word gives column 8192, outside the matrix, and is no
    column's word; a non-negative one is its own column number. The updates of row R are the numbers R·64 + k, in the
    order of k, and every hit is among them, so the run over all 8192·64 updates is the run over k = 0, …, 63.
-/
import proofs.«173937_j79267916415457_1_alg».proof.Proof.RefStages
import proofs.«173937_j79267916415457_1_alg».proof.Proof.Spec
import proofs.«173937_j79267916415457_1_alg».proof.Proof.Overwrite
import Idealize.ShloMosaic.Lib.ValueIdx
import Idealize.ShloMosaic.Lib.Pipeline.Value
import Idealize.ShloMosaic.Lib.StableHlo.Predicate

noncomputable section

namespace Cert.ReferenceIdeal.Target

open Cert.ReferenceIdeal Cert.ReferenceIdeal.Gen Idealize.ShloMosaic Idealize.ShloMosaic.ValueIdx

/-! ## Where an update lands -/

/-- An update lands on the entry `i` exactly when, on every axis, its start plus its window coordinate is `i`'s coordinate. -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · intro e a
      have := congrFun e a
      have h2 := h a
      rw [Fin.ext_iff] at this
      simp only at this
      omega
    · intro e
      funext a
      apply Fin.ext
      simp only
      have := e a
      omega
  · next h =>
    constructor
    · intro e; cases e
    · intro e
      exfalso
      apply h
      intro a
      have := e a
      have := (i a).isLt
      omega

/-- The two scatters' dimension numbers. -/
abbrev d1 := scatter_S8192x8192_S8192x64x2_S8192x64_n_01_01_2
abbrev d2 := scatter_S8192x8192_S8192x2_S8192_n_01_01_1

theorem d1_window (j : S8192x64.Idx) (a : Fin 2) : d1.window j a = 0 := by
  have h : d1.sKept = [] := by decide
  unfold ScatterDims.window
  rw [dif_neg (by rw [h]; exact List.not_mem_nil)]

theorem d1_start0 (r : Fin 8192) (k : Fin 64) (idx : IVec S8192x64x2 32) :
    d1.start (ix2 r k) idx 0 = (idx (ix3 r k 0)).toInt := by
  unfold ScatterDims.start
  rw [dif_pos (by decide)]
  congr 2
  funext b
  match b with
  | ⟨0, _⟩ => rfl
  | ⟨1, _⟩ => rfl
  | ⟨2, _⟩ => rfl

theorem d1_start1 (r : Fin 8192) (k : Fin 64) (idx : IVec S8192x64x2 32) :
    d1.start (ix2 r k) idx 1 = (idx (ix3 r k 1)).toInt := by
  unfold ScatterDims.start
  rw [dif_pos (by decide)]
  congr 2
  funext b
  match b with
  | ⟨0, _⟩ => rfl
  | ⟨1, _⟩ => rfl
  | ⟨2, _⟩ => rfl

theorem d2_window (j : S8192.Idx) (a : Fin 2) : d2.window j a = 0 := by
  have h : d2.sKept = [] := by decide
  unfold ScatterDims.window
  rw [dif_neg (by rw [h]; exact List.not_mem_nil)]

theorem d2_start0 (n : Fin 8192) (idx : IVec S8192x2 32) :
    d2.start (ix1 n) idx 0 = (idx (ix2 n 0)).toInt := by
  unfold ScatterDims.start
  rw [dif_pos (by decide)]
  congr 2
  funext b
  match b with
  | ⟨0, _⟩ => rfl
  | ⟨1, _⟩ => rfl

theorem d2_start1 (n : Fin 8192) (idx : IVec S8192x2 32) :
    d2.start (ix1 n) idx 1 = (idx (ix2 n 1)).toInt := by
  unfold ScatterDims.start
  rw [dif_pos (by decide)]
  congr 2
  funext b
  match b with
  | ⟨0, _⟩ => rfl
  | ⟨1, _⟩ => rfl

/-- The first scatter: update `(r, k)` lands on `(R, C)` exactly when its two index words read `R` and `C`. -/
theorem d1_hit (r : Fin 8192) (k : Fin 64) (idx : IVec S8192x64x2 32) (R C : Fin 8192) :
    d1.resultIdx? (ix2 r k) idx = some (ix2 R C)
      ↔ (idx (ix3 r k 0)).toInt = (R.val : ℤ) ∧ (idx (ix3 r k 1)).toInt = (C.val : ℤ) := by
  rw [resultIdx?_eq_some_iff, Fin.forall_fin_two, d1_window, d1_window, d1_start0, d1_start1]
  simp only [Nat.cast_zero, add_zero]

/-- The second scatter: update `n` lands on `(R, C)` exactly when its two index words read `R` and `C`. -/
theorem d2_hit (n : Fin 8192) (idx : IVec S8192x2 32) (R C : Fin 8192) :
    d2.resultIdx? (ix1 n) idx = some (ix2 R C)
      ↔ (idx (ix2 n 0)).toInt = (R.val : ℤ) ∧ (idx (ix2 n 1)).toInt = (C.val : ℤ) := by
  rw [resultIdx?_eq_some_iff, Fin.forall_fin_two, d2_window, d2_window, d2_start0, d2_start1]
  simp only [Nat.cast_zero, add_zero]

/-! ## Words -/

/-- A number below 8192 read back as a signed word is itself. -/
theorem toInt_ofNat_lt (m : ℕ) (hm : m < 8192) : (BitVec.ofNat 32 m).toInt = (m : ℤ) :=
  StableHlo.Predicate.toInt_ofNat_small m (by omega)

theorem cmpi_slt_zero (w : BitVec 32) : IntOp.cmpi .slt w 0#32 = if w.toInt < 0 then 1#1 else 0#1 := by
  unfold IntOp.cmpi
  simp only [BitVec.slt, BitVec.toInt_zero]
  by_cases h : w.toInt < 0 <;> simp [h]

theorem cmpi_sge_zero (w : BitVec 32) : IntOp.cmpi .sge w 0#32 = if 0 ≤ w.toInt then 1#1 else 0#1 := by
  unfold IntOp.cmpi
  simp only [BitVec.sle, BitVec.toInt_zero]
  by_cases h : 0 ≤ w.toInt <;> simp [h]

/-- The index normalisation: a negative index word gets 8192 added. -/
def normIdx (w : BitVec 32) : BitVec 32 := Scalar.select (IntOp.cmpi .slt w 0#32) (IntOp.addi w 8192#32) w

/-- The column a position word names: itself when non-negative, else the out-of-range 8192. -/
def colOf (w : BitVec 32) : BitVec 32 := Scalar.select (IntOp.cmpi .sge w 0#32) w 8192#32

theorem normIdx_of_nonneg (w : BitVec 32) (h : 0 ≤ w.toInt) : normIdx w = w := by
  unfold normIdx
  rw [cmpi_slt_zero, if_neg (by omega)]
  exact ValueIdx.select_zero _ _

theorem normIdx_ofNat (m : ℕ) (hm : m < 8192) : normIdx (BitVec.ofNat 32 m) = BitVec.ofNat 32 m :=
  normIdx_of_nonneg _ (by rw [toInt_ofNat_lt m hm]; omega)

/-- The normalised column word reads `C` exactly when the position word is `C`'s word. -/
theorem col_hit (w : BitVec 32) (C : Fin 8192) :
    (normIdx (colOf w)).toInt = (C.val : ℤ) ↔ BitVec.ofNat 32 C.val = w := by
  by_cases h : 0 ≤ w.toInt
  · have hc : colOf w = w := by
      unfold colOf; rw [cmpi_sge_zero, if_pos h]; exact ValueIdx.select_one _ _
    rw [hc, normIdx_of_nonneg w h]
    constructor
    · intro e
      apply BitVec.eq_of_toInt_eq
      rw [toInt_ofNat_lt _ C.isLt, e]
    · intro e
      rw [← e, toInt_ofNat_lt _ C.isLt]
  · have hc : colOf w = 8192#32 := by
      unfold colOf; rw [cmpi_sge_zero, if_neg h]; exact ValueIdx.select_zero _ _
    have h8 : (normIdx (8192#32)).toInt = 8192 := by decide
    rw [hc, h8]
    constructor
    · intro e; have := C.isLt; omega
    · intro e
      exfalso; apply h
      rw [← e, toInt_ofNat_lt _ C.isLt]; omega

/-! ## The two scatters over index arrays given by their entries -/

/-- The diagonal scatter: every update is `one` and update `n` lands on `(n, n)`, so the entry `(R, C)` becomes
    `one` on the diagonal and keeps the operand's value elsewhere. -/
theorem scatter2_apply {α : Type} (x : S8192x8192.Idx → α) (idx : IVec S8192x2 32) (upd : S8192.Idx → α) (one : α)
    (hidx0 : ∀ n : Fin 8192, idx (ix2 n 0) = BitVec.ofNat 32 n.val)
    (hidx1 : ∀ n : Fin 8192, idx (ix2 n 1) = BitVec.ofNat 32 n.val)
    (hupd : ∀ j, upd j = one) (R C : Fin 8192) :
    Host.scatter d2 (fun _ b => b) x idx upd (ix2 R C) = if C.val = R.val then one else x (ix2 R C) := by
  rw [Cert.KL.scatter_set_apply]
  have hit : ∀ n : Fin 8192, d2.resultIdx? (ix1 n) idx = some (ix2 R C) ↔ n.val = R.val ∧ n.val = C.val := by
    intro n
    rw [d2_hit, hidx0, hidx1, toInt_ofNat_lt _ n.isLt]
    omega
  rcases Cert.KL.lastHit_foldl S8192.numel (fun n => d2.resultIdx? (S8192.rowMajor.symm n) idx = some (ix2 R C))
      (fun n => upd (S8192.rowMajor.symm n)) (x (ix2 R C)) with ⟨n, hpn, hv, _⟩ | ⟨hnone, hv⟩
  · refine hv.trans ?_
    show upd _ = _
    rw [hupd]
    obtain ⟨m, hm⟩ : ∃ m : Fin 8192, S8192.rowMajor.symm n = ix1 m := ⟨_, eq_ix1 _⟩
    have hpn' : d2.resultIdx? (S8192.rowMajor.symm n) idx = some (ix2 R C) := hpn
    rw [hm, hit] at hpn'
    rw [if_pos (by omega)]
  · refine hv.trans ?_
    rw [if_neg]
    intro hCR
    apply hnone (S8192.rowMajor (ix1 R))
    show d2.resultIdx? (S8192.rowMajor.symm (S8192.rowMajor (ix1 R))) idx = some (ix2 R C)
    rw [Equiv.symm_apply_apply, hit]
    exact ⟨rfl, hCR.symm⟩

/-- The first scatter: update `(r, k)` lands on row `r` and on the column its position word names (dropped when
    that is no column), so the entry `(R, C)` is the run over `k = 0, …, 63` of row `R`'s overwrites. -/
theorem scatter1_apply {α : Type} (x : S8192x8192.Idx → α) (idx : IVec S8192x64x2 32) (upd : S8192x64.Idx → α)
    (lp : S8192x64.Idx → BitVec 32)
    (hidx0 : ∀ (r : Fin 8192) (k : Fin 64), idx (ix3 r k 0) = BitVec.ofNat 32 r.val)
    (hidx1 : ∀ (r : Fin 8192) (k : Fin 64), idx (ix3 r k 1) = normIdx (colOf (lp (ix2 r k))))
    (R C : Fin 8192) :
    Host.scatter d1 (fun _ b => b) x idx upd (ix2 R C)
      = (List.finRange 64).foldl
          (fun acc k => if BitVec.ofNat 32 C.val = lp (ix2 R k) then upd (ix2 R k) else acc) (x (ix2 R C)) := by
  rw [Cert.KL.scatter_set_apply]
  have hit : ∀ (r : Fin 8192) (k : Fin 64), d1.resultIdx? (ix2 r k) idx = some (ix2 R C)
      ↔ r.val = R.val ∧ BitVec.ofNat 32 C.val = lp (ix2 r k) := by
    intro r k
    rw [d1_hit, hidx0, hidx1, toInt_ofNat_lt _ r.isLt, col_hit, Nat.cast_inj]
  refine Cert.KL.foldl_eq_of_embed (fun k : Fin 64 => S8192x64.rowMajor (ix2 R k)) ?_ _ _ _ _ ?_ ?_ ?_ _
  · intro a b hab
    rw [Fin.lt_def, Shape.rowMajor_val_two, Shape.rowMajor_val_two]
    show R.val * 64 + a.val < R.val * 64 + b.val
    have := Fin.lt_def.1 hab
    omega
  · intro k
    show d1.resultIdx? (S8192x64.rowMajor.symm (S8192x64.rowMajor (ix2 R k))) idx = some (ix2 R C) ↔ _
    rw [Equiv.symm_apply_apply, hit]
    exact ⟨fun h => h.2, fun h => ⟨rfl, h⟩⟩
  · intro k
    show upd (S8192x64.rowMajor.symm (S8192x64.rowMajor (ix2 R k))) = _
    rw [Equiv.symm_apply_apply]
  · intro n hpn
    obtain ⟨r, k, hj⟩ : ∃ (r : Fin 8192) (k : Fin 64), S8192x64.rowMajor.symm n = ix2 r k := ⟨_, _, eq_ix2 _⟩
    have hpn' : d1.resultIdx? (S8192x64.rowMajor.symm n) idx = some (ix2 R C) := hpn
    rw [hj, hit] at hpn'
    have hr : r = R := Fin.ext hpn'.1
    subst hr
    exact ⟨k, (Equiv.symm_apply_eq _).1 hj⟩

/-! ## The two concatenations read at an index -/

theorem concat3_left {α : Type} (a b : S8192x64x1.Idx → α) (h : Shape.Concatenates [S8192x64x1, S8192x64x1] S8192x64x2 2)
    (r : Fin 8192) (k : Fin 64) :
    concatenate S8192x64x2 2 [⟨S8192x64x1, a⟩, ⟨S8192x64x1, b⟩] h (ix3 r k 0) = a (ix3 r k 0) :=
  concatenate_pair_apply_left 2 a b h (ix3 r k 0) rfl (ix3 r k 0) (fun c => match c with
    | ⟨0, _⟩ => rfl | ⟨1, _⟩ => rfl | ⟨2, _⟩ => rfl)

theorem concat3_right {α : Type} (a b : S8192x64x1.Idx → α) (h : Shape.Concatenates [S8192x64x1, S8192x64x1] S8192x64x2 2)
    (r : Fin 8192) (k : Fin 64) :
    concatenate S8192x64x2 2 [⟨S8192x64x1, a⟩, ⟨S8192x64x1, b⟩] h (ix3 r k 1) = b (ix3 r k 0) :=
  concatenate_pair_apply_right 2 a b h (ix3 r k 1) rfl rfl (ix3 r k 0) (fun c => match c with
    | ⟨0, _⟩ => fun _ => rfl | ⟨1, _⟩ => fun _ => rfl | ⟨2, _⟩ => fun hc => absurd rfl hc) rfl

theorem concat2_left {α : Type} (a b : S8192x1.Idx → α) (h : Shape.Concatenates [S8192x1, S8192x1] S8192x2 1)
    (n : Fin 8192) :
    concatenate S8192x2 1 [⟨S8192x1, a⟩, ⟨S8192x1, b⟩] h (ix2 n 0) = a (ix2 n 0) :=
  concatenate_pair_apply_left 1 a b h (ix2 n 0) rfl (ix2 n 0) (fun c => match c with
    | ⟨0, _⟩ => rfl | ⟨1, _⟩ => rfl)

theorem concat2_right {α : Type} (a b : S8192x1.Idx → α) (h : Shape.Concatenates [S8192x1, S8192x1] S8192x2 1)
    (n : Fin 8192) :
    concatenate S8192x2 1 [⟨S8192x1, a⟩, ⟨S8192x1, b⟩] h (ix2 n 1) = b (ix2 n 0) :=
  concatenate_pair_apply_right 1 a b h (ix2 n 1) rfl rfl (ix2 n 0) (fun c => match c with
    | ⟨0, _⟩ => fun _ => rfl | ⟨1, _⟩ => fun hc => absurd rfl hc) rfl

/-! ## The index arrays' entries -/

/-- The normalised row numbers: entry `(r, k)` is `r`'s word. -/
theorem v28_at (r : Fin 8192) (k : Fin 64) : ReadP.val_main_v28 (F := Ideal) (ix2 r k) = BitVec.ofNat 32 r.val := by
  rw [ReadP.val_main_v28_apply, ReadP.val_main_v25_apply, ReadP.val_main_v27_apply, ReadP.val_main_v22_apply,
    ReadP.val_main_v21_apply, ReadP.val_main_v20_apply, ReadP.val_main_v24_apply, ReadP.val_main_c_8_apply,
    ReadP.val_main_v26_apply, ReadP.val_main_c_9_apply]
  exact normIdx_ofNat r.val r.isLt

/-- The normalised columns: entry `(r, k)` is the normalised column of the position word `(r, k)`. -/
theorem v33_at (x2 : (⟨S8192, .i32⟩ : BufTy).Contents (Elt Ideal)) (x3 : (⟨S8192x64, .i32⟩ : BufTy).Contents (Elt Ideal))
    (r : Fin 8192) (k : Fin 64) :
    ReadP.val_main_v33 (F := Ideal) x2 x3 (ix2 r k) = normIdx (colOf (ReadP.val_main_v16 (F := Ideal) x2 x3 (ix2 r k))) := by
  rw [ReadP.val_main_v33_apply, ReadP.val_main_v30_apply, ReadP.val_main_v32_apply, ReadP.val_main_v19_apply,
    ReadP.val_main_v18_apply, ReadP.val_main_v17_apply, ReadP.val_main_c_6_apply, ReadP.val_main_call1_v1_apply,
    ReadP.val_main_call1_v0_apply, ReadP.val_main_c_7_apply, ReadP.val_main_v29_apply, ReadP.val_main_c_10_apply,
    ReadP.val_main_v31_apply, ReadP.val_main_c_11_apply]
  rfl

theorem idx34_at (r : Fin 8192) (k : Fin 64) : ReadP.idx_main_v34 (ix3 r k 0) = ix2 r k := by
  funext a; match a with | ⟨0, _⟩ => rfl | ⟨1, _⟩ => rfl

theorem idx35_at (r : Fin 8192) (k : Fin 64) : ReadP.idx_main_v35 (ix3 r k 0) = ix2 r k := by
  funext a; match a with | ⟨0, _⟩ => rfl | ⟨1, _⟩ => rfl

theorem v36_at0 (x2 : (⟨S8192, .i32⟩ : BufTy).Contents (Elt Ideal)) (x3 : (⟨S8192x64, .i32⟩ : BufTy).Contents (Elt Ideal))
    (r : Fin 8192) (k : Fin 64) :
    ReadP.val_main_v36 (F := Ideal) x2 x3 (ix3 r k 0) = BitVec.ofNat 32 r.val := by
  unfold ReadP.val_main_v36
  rw [concat3_left, ReadP.val_main_v34_apply, idx34_at, v28_at]

theorem v36_at1 (x2 : (⟨S8192, .i32⟩ : BufTy).Contents (Elt Ideal)) (x3 : (⟨S8192x64, .i32⟩ : BufTy).Contents (Elt Ideal))
    (r : Fin 8192) (k : Fin 64) :
    ReadP.val_main_v36 (F := Ideal) x2 x3 (ix3 r k 1)
      = normIdx (colOf (ReadP.val_main_v16 (F := Ideal) x2 x3 (ix2 r k))) := by
  unfold ReadP.val_main_v36
  rw [concat3_right, ReadP.val_main_v35_apply, idx35_at, v33_at]

theorem v43_at (n : Fin 8192) : ReadP.val_main_v43 (F := Ideal) (ix1 n) = BitVec.ofNat 32 n.val := by
  rw [ReadP.val_main_v43_apply, ReadP.val_main_v40_apply, ReadP.val_main_v42_apply, ReadP.val_main_v38_apply,
    ReadP.val_main_v39_apply, ReadP.val_main_c_12_apply, ReadP.val_main_v41_apply, ReadP.val_main_c_13_apply]
  exact normIdx_ofNat n.val n.isLt

theorem v48_at (n : Fin 8192) : ReadP.val_main_v48 (F := Ideal) (ix1 n) = BitVec.ofNat 32 n.val := by
  rw [ReadP.val_main_v48_apply, ReadP.val_main_v45_apply, ReadP.val_main_v47_apply, ReadP.val_main_v38_apply,
    ReadP.val_main_v44_apply, ReadP.val_main_c_14_apply, ReadP.val_main_v46_apply, ReadP.val_main_c_15_apply]
  exact normIdx_ofNat n.val n.isLt

theorem idx49_at (n : Fin 8192) : ReadP.idx_main_v49 (ix2 n 0) = ix1 n := by
  funext a; match a with | ⟨0, _⟩ => rfl

theorem idx50_at (n : Fin 8192) : ReadP.idx_main_v50 (ix2 n 0) = ix1 n := by
  funext a; match a with | ⟨0, _⟩ => rfl

theorem v51_at0 (n : Fin 8192) : ReadP.val_main_v51 (F := Ideal) (ix2 n 0) = BitVec.ofNat 32 n.val := by
  unfold ReadP.val_main_v51
  rw [concat2_left, ReadP.val_main_v49_apply, idx49_at, v43_at]

theorem v51_at1 (n : Fin 8192) : ReadP.val_main_v51 (F := Ideal) (ix2 n 1) = BitVec.ofNat 32 n.val := by
  unfold ReadP.val_main_v51
  rw [concat2_right, ReadP.val_main_v50_apply, idx50_at, v48_at]

/-! ## The target matrix read at an index -/

theorem target_eq (x1 : (⟨S8192x64, .f32⟩ : BufTy).Contents (Elt Ideal)) (x2 : (⟨S8192, .i32⟩ : BufTy).Contents (Elt Ideal))
    (x3 : (⟨S8192x64, .i32⟩ : BufTy).Contents (Elt Ideal)) (R C : Fin 8192) :
    ReadP.val_main_v53 (F := Ideal) x1 x2 x3 (ix2 R C)
      = Cert.KL.targetRow (fun k => ReadP.val_main_v16 (F := Ideal) x2 x3 (ix2 R k)) (fun k => (x1 (ix2 R k) : EReal)) R.val C := by
  have h53 : ReadP.val_main_v53 (F := Ideal) x1 x2 x3 (ix2 R C)
      = if C.val = R.val then Ideal.ofBits .f32 0x3F800000#32 else ReadP.val_main_v37 (F := Ideal) x1 x2 x3 (ix2 R C) := by
    unfold ReadP.val_main_v53
    exact scatter2_apply _ _ _ _ v51_at0 v51_at1
      (fun j => by rw [ReadP.val_main_v52_apply, ReadP.val_main_cst_16_apply]; rfl) R C
  have h37 : ReadP.val_main_v37 (F := Ideal) x1 x2 x3 (ix2 R C)
      = (List.finRange 64).foldl
          (fun acc k => if BitVec.ofNat 32 C.val = ReadP.val_main_v16 (F := Ideal) x2 x3 (ix2 R k) then x1 (ix2 R k) else acc)
          (ReadP.val_main_v23 (F := Ideal) (ix2 R C)) := by
    unfold ReadP.val_main_v37
    exact scatter1_apply _ _ _ (ReadP.val_main_v16 (F := Ideal) x2 x3) (v36_at0 x2 x3) (v36_at1 x2 x3) R C
  rw [h53, h37, ReadP.val_main_v23_apply, ReadP.val_main_cst_apply]
  rfl

end Cert.ReferenceIdeal.Target

end
-- ==== Proof.RefLoss.lean ====
/-
  The reference's result over its own target matrix: the sum over the rows of the row loss, divided by 8192 and
  multiplied by 4.

  Entry by entry: the target divided by its row's clipped sum is the specification's normalised target; the logits
  divided by 2, shifted by their row maximum, less the logarithm of the row's sum of exponentials, are the specification's
  log-softmax (a maximum against minus infinity changes nothing); the pointwise term is the specification's term; and the
  sum over all entries is the sum over the rows of the sums over the columns.
-/
import proofs.«173937_j79267916415457_1_alg».proof.Proof.RefStages
import proofs.«173937_j79267916415457_1_alg».proof.Proof.Spec
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.Loss

open Cert.ReferenceIdeal Cert.ReferenceIdeal.Gen Idealize.ShloMosaic Idealize.ShloMosaic.ValueIdx

/-! ## The index maps of the layout stages, at explicit coordinates -/

/-- A full index read in the kept-dimension column of the row sums: row R, column 0. -/
theorem idx_v57 (R C : Fin 8192) : ReadP.idx_main_v57 (ix2 R C) = ix2 R (0 : Fin 1) :=
  funext fun a => Fin.ext (by match a with | ⟨0, _⟩ => rfl | ⟨1, _⟩ => rfl)

theorem idx_v55 (R : Fin 8192) : ReadP.idx_main_v55 (ix2 R (0 : Fin 1)) = ix1 R :=
  funext fun a => Fin.ext (by match a with | ⟨0, _⟩ => rfl)

theorem idx_v54 (R k : Fin 8192) : ReadP.idx_main_v54 (ix1 R) k = ix2 R k :=
  funext fun a => Fin.ext (by match a with | ⟨0, _⟩ => rfl | ⟨1, _⟩ => rfl)

theorem idx_c3v4 (R C : Fin 8192) : ReadP.idx_main_call3_v4 (ix2 R C) = ix2 R (0 : Fin 1) :=
  funext fun a => Fin.ext (by match a with | ⟨0, _⟩ => rfl | ⟨1, _⟩ => rfl)

theorem idx_c3v3 (R : Fin 8192) : ReadP.idx_main_call3_v3 (ix2 R (0 : Fin 1)) = ix1 R :=
  funext fun a => Fin.ext (by match a with | ⟨0, _⟩ => rfl)

theorem idx_c3v7 (R k : Fin 8192) : ReadP.idx_main_call3_v7 (ix1 R) k = ix2 R k :=
  funext fun a => Fin.ext (by match a with | ⟨0, _⟩ => rfl | ⟨1, _⟩ => rfl)

theorem idx_c3v8 (R : Fin 8192) : ReadP.idx_main_call3_v8 (ix2 R (0 : Fin 1)) = ix1 R :=
  funext fun a => Fin.ext (by match a with | ⟨0, _⟩ => rfl)

theorem idx_c3v10 (R C : Fin 8192) : ReadP.idx_main_call3_v10 (ix2 R C) = ix2 R (0 : Fin 1) :=
  funext fun a => Fin.ext (by match a with | ⟨0, _⟩ => rfl | ⟨1, _⟩ => rfl)

/-! ## The normalised target -/

/-- The clipped row sum of row R of the target is the specification's row norm. -/
theorem rowNorm_at (x1 : (⟨S8192x64, .f32⟩ : BufTy).Contents (Elt Ideal)) (x2 : (⟨S8192, .i32⟩ : BufTy).Contents (Elt Ideal))
    (x3 : (⟨S8192x64, .i32⟩ : BufTy).Contents (Elt Ideal)) (R : Fin 8192) :
    ReadP.val_main_v56 (F := Ideal) x1 x2 x3 (ix2 R (0 : Fin 1))
      = Cert.KL.rowNorm (fun C => (ReadP.val_main_v53 (F := Ideal) x1 x2 x3 (ix2 R C) : EReal)) := by
  rw [ReadP.val_main_v56_apply, ReadP.val_main_call2_v1_apply, ReadP.val_main_call2_v0_apply, ReadP.val_main_cst_18_apply,
    ReadP.val_main_v55_apply, idx_v55, ReadP.val_main_v54_apply, ReadP.val_main_cst_17_apply]
  simp only [idx_v54, Ideal.maximumf_def, Ideal.ofBits_def, Ideal.ofBits_zero_f32, zero_add]
  rfl

/-- The target divided by its row's clipped sum. -/
theorem norm_at (x1 : (⟨S8192x64, .f32⟩ : BufTy).Contents (Elt Ideal)) (x2 : (⟨S8192, .i32⟩ : BufTy).Contents (Elt Ideal))
    (x3 : (⟨S8192x64, .i32⟩ : BufTy).Contents (Elt Ideal)) (R C : Fin 8192) :
    ReadP.val_main_v58 (F := Ideal) x1 x2 x3 (ix2 R C)
      = Ideal.div (ReadP.val_main_v53 (F := Ideal) x1 x2 x3 (ix2 R C))
          (Cert.KL.rowNorm (fun C' => (ReadP.val_main_v53 (F := Ideal) x1 x2 x3 (ix2 R C') : EReal))) := by
  rw [ReadP.val_main_v58_apply, ReadP.val_main_v57_apply, idx_v57, rowNorm_at, Ideal.hostDivf_def]

/-! ## The log-softmax of the scaled logits -/

/-- The logits divided by the word of 2 are the specification's scaled logits. -/
theorem scaled_at (x0 : (⟨S8192x8192, .f32⟩ : BufTy).Contents (Elt Ideal)) (R C : Fin 8192) :
    ReadP.val_main_v60 (F := Ideal) x0 (ix2 R C) = Cert.KL.scaled (fun C' => (x0 (ix2 R C') : EReal)) C := by
  rw [ReadP.val_main_v60_apply, ReadP.val_main_v59_apply, ReadP.val_main_cst_19_apply, Ideal.hostDivf_def, Ideal.ofBits_def]
  exact Cert.KL.div_two_eq_mul_half _

/-- Row R with column k put back on the reduced axis is (R, k). -/
theorem lift_row (h : S8192x8192.Reduces [1] S8192) (R : Fin 8192) (k : Fin (S8192x8192.size 1)) :
    h.lift (ix1 R) k = ix2 R (⟨k.val, k.isLt⟩ : Fin 8192) := by
  funext c; apply Fin.ext
  fin_cases c <;> rfl

/-- A maximum with minus infinity is the other operand. -/
theorem max_ninf (y : EReal) : max (Ideal.ofBits .f32 0xFF800000#32) y = y := by
  rw [Cert.KL.ofBits_ninf]; exact max_bot_left y

/-- A reduction with a maximum body over the columns, at row R, is the fold of the maximum from the initial value over
    that row. -/
theorem hostReduceMax_row (y : FVec Ideal S8192x8192 .f32) (init : FVec Ideal S_ .f32) (h' : S8192x8192.ReducesTo [1] S8192)
    (hu : 0 < S_.numel) (R : Fin 8192) :
    Host.reduce FloatOps.maximumf y init h' hu (ix1 R)
      = (Finset.univ : Finset (Fin 8192)).fold max (init (Shape.Idx.first hu)) (fun k => y (ix2 R k)) := by
  have h : S8192x8192.Reduces [1] S8192 := by decide
  rw [Host.reduce_eq_fold_single FloatOps.maximumf y _ h' h hu]
  have hf : (y ∘ h.lift (ix1 R)) = fun k : Fin 8192 => y (ix2 R k) := funext fun k => congrArg y (lift_row h R k)
  rw [hf]
  rfl

/-- The reference's row maximum of the scaled logits, before the guard against minus infinity. -/
theorem reduceMax_at (x0 : (⟨S8192x8192, .f32⟩ : BufTy).Contents (Elt Ideal)) (R : Fin 8192) :
    ReadP.val_main_call3_v0 (F := Ideal) x0 (ix1 R)
      = (Finset.univ : Finset (Fin 8192)).fold max (Ideal.ofBits .f32 0xFF800000#32)
          (fun k => (ReadP.val_main_v60 (F := Ideal) x0 (ix2 R k) : EReal)) := by
  unfold ReadP.val_main_call3_v0
  rw [hostReduceMax_row, ReadP.val_main_call3_cst_apply, Ideal.ofBits_def]

/-- The row maximum the log-softmax subtracts is the specification's. -/
theorem rowMax_at (x0 : (⟨S8192x8192, .f32⟩ : BufTy).Contents (Elt Ideal)) (R : Fin 8192) :
    ReadP.val_main_call3_v2 (F := Ideal) x0 (ix1 R) = Cert.KL.rowMax (fun C' => (x0 (ix2 R C') : EReal)) := by
  rw [ReadP.val_main_call3_v2_apply, ReadP.val_main_call3_v1_apply, ReadP.val_main_call3_cst_0_apply, reduceMax_at,
    Ideal.maximumf_def, Ideal.ofBits_def, max_ninf]
  simp only [scaled_at]
  rfl

/-- The shifted logits. -/
theorem shifted_at (x0 : (⟨S8192x8192, .f32⟩ : BufTy).Contents (Elt Ideal)) (R C : Fin 8192) :
    ReadP.val_main_call3_v5 (F := Ideal) x0 (ix2 R C)
      = Cert.KL.scaled (fun C' => (x0 (ix2 R C') : EReal)) C - Cert.KL.rowMax (fun C' => (x0 (ix2 R C') : EReal)) := by
  rw [ReadP.val_main_call3_v5_apply, ReadP.val_main_call3_v4_apply, idx_c3v4, ReadP.val_main_call3_v3_apply, idx_c3v3,
    rowMax_at, scaled_at, Ideal.subf_def]

/-- The logarithm of the row's sum of exponentials. -/
theorem logSumExp_at (x0 : (⟨S8192x8192, .f32⟩ : BufTy).Contents (Elt Ideal)) (R : Fin 8192) :
    ReadP.val_main_call3_v9 (F := Ideal) x0 (ix2 R (0 : Fin 1))
      = Ideal.log (∑ C' : Fin 8192, Ideal.exp (Cert.KL.scaled (fun C'' => (x0 (ix2 R C'') : EReal)) C'
          - Cert.KL.rowMax (fun C'' => (x0 (ix2 R C'') : EReal)))) := by
  rw [ReadP.val_main_call3_v9_apply, ReadP.val_main_call3_v8_apply, idx_c3v8, ReadP.val_main_call3_v7_apply,
    ReadP.val_main_call3_cst_1_apply]
  simp only [idx_c3v7, ReadP.val_main_call3_v6_apply, shifted_at, Ideal.hostUnary_log_def, Ideal.hostUnary_exp_def,
    Ideal.ofBits_def, Ideal.ofBits_zero_f32, zero_add]

/-- The reference's log-softmax at (R, C) is the specification's of row R at column C. -/
theorem logSoft_at (x0 : (⟨S8192x8192, .f32⟩ : BufTy).Contents (Elt Ideal)) (R C : Fin 8192) :
    ReadP.val_main_v61 (F := Ideal) x0 (ix2 R C) = Cert.KL.logSoft (fun C' => (x0 (ix2 R C') : EReal)) C := by
  rw [ReadP.val_main_v61_apply, shifted_at, ReadP.val_main_call3_v10_apply, idx_c3v10, logSumExp_at, Ideal.subf_def]
  rfl

/-! ## One entry's contribution, and the total -/

/-- The reference's pointwise term at (R, C) is the specification's term of the normalised target and the log-softmax. -/
theorem term_at (x0 : (⟨S8192x8192, .f32⟩ : BufTy).Contents (Elt Ideal)) (x1 : (⟨S8192x64, .f32⟩ : BufTy).Contents (Elt Ideal))
    (x2 : (⟨S8192, .i32⟩ : BufTy).Contents (Elt Ideal)) (x3 : (⟨S8192x64, .i32⟩ : BufTy).Contents (Elt Ideal)) (R C : Fin 8192) :
    ReadP.val_main_v70 (F := Ideal) x0 x1 x2 x3 (ix2 R C)
      = Cert.KL.term
          (Ideal.div (ReadP.val_main_v53 (F := Ideal) x1 x2 x3 (ix2 R C))
            (Cert.KL.rowNorm (fun C' => (ReadP.val_main_v53 (F := Ideal) x1 x2 x3 (ix2 R C') : EReal))))
          (Cert.KL.logSoft (fun C' => (x0 (ix2 R C') : EReal)) C) := by
  rw [ReadP.val_main_v70_apply, ReadP.val_main_v67_apply, ReadP.val_main_v69_apply, ReadP.val_main_v68_apply,
    ReadP.val_main_v65_apply, ReadP.val_main_v64_apply, ReadP.val_main_v63_apply, ReadP.val_main_call5_v1_apply,
    ReadP.val_main_call5_v0_apply, ReadP.val_main_cst_23_apply, ReadP.val_main_v66_apply, ReadP.val_main_cst_22_apply,
    ReadP.val_main_call4_v1_apply, ReadP.val_main_call4_v0_apply, ReadP.val_main_cst_21_apply, ReadP.val_main_v62_apply,
    ReadP.val_main_cst_20_apply, logSoft_at, norm_at]
  generalize Ideal.div (ReadP.val_main_v53 (F := Ideal) x1 x2 x3 (ix2 R C))
    (Cert.KL.rowNorm (fun C' => (ReadP.val_main_v53 (F := Ideal) x1 x2 x3 (ix2 R C') : EReal))) = tn
  generalize Cert.KL.logSoft (fun C' => (x0 (ix2 R C') : EReal)) C = lsm
  rfl

theorem result_eq (x0 : (⟨S8192x8192, .f32⟩ : BufTy).Contents (Elt Ideal)) (x1 : (⟨S8192x64, .f32⟩ : BufTy).Contents (Elt Ideal))
    (x2 : (⟨S8192, .i32⟩ : BufTy).Contents (Elt Ideal)) (x3 : (⟨S8192x64, .i32⟩ : BufTy).Contents (Elt Ideal)) :
    ReadP.val_main_v73 (F := Ideal) x0 x1 x2 x3
      = fun _ => Ideal.div (Ideal.ofBits .f32 0x00000000#32
            + ∑ R : Fin 8192, Cert.KL.rowLoss (fun C => (ReadP.val_main_v53 (F := Ideal) x1 x2 x3 (ix2 R C) : EReal)) (fun C => (x0 (ix2 R C) : EReal)))
          (Ideal.ofBits .f32 0x46000000#32) * Ideal.ofBits .f32 0x40800000#32 := by
  funext i
  rw [ReadP.val_main_v73_apply, ReadP.val_main_v72_apply, ReadP.val_main_v71_apply, ReadP.val_main_cst_26_apply,
    ReadP.val_main_cst_25_apply, ReadP.val_main_cst_24_apply, sum_idx2]
  simp only [term_at, Ideal.mulf_def, Ideal.hostDivf_def, Ideal.ofBits_def]
  rfl

end Cert.ReferenceIdeal.Loss

end
-- ==== Proof.Bridge.lean ====
/-
  The two scalars are one. The kernel's program ends with (Σ_R loss of row R) · 2⁻¹¹ and the reference with
  ((0 + Σ_R loss of row R) / 8192) · 4, the loss of row R being on both sides the row loss of the same target row
  (the 64 ordered overwrites from row R of the local positions and of the scores, then 1 on the diagonal) against the
  same row of logits: the local positions are the same function of the integer arguments on both sides, and the
  scores and the logits are the arguments themselves. The two scalings agree on every extended real.
-/
import proofs.«173937_j79267916415457_1_alg».proof.Proof.KerRun
import proofs.«173937_j79267916415457_1_alg».proof.Proof.KerGlue
import proofs.«173937_j79267916415457_1_alg».proof.Proof.RefTarget
import proofs.«173937_j79267916415457_1_alg».proof.Proof.RefLoss

noncomputable section

namespace Cert.Bridge

open Idealize.ShloMosaic Idealize.SL.Sem Idealize.ShloMosaic.ValueIdx
open Cert.KernelIdeal Cert.KernelIdeal.Gen Cert.KernelIdeal.Tile

theorem scalar_eq (m : (ℓ : Loc nD τ sig) → Buf (Elt Ideal) ℓ) (c : Dev nD) :
    Cert.ReferenceIdeal.ReadP.val_main_v73 (F := Ideal) (m ((c.tc : Thread nD τ).loc main_arg0)) (m ((c.tc : Thread nD τ).loc main_arg1))
        (m ((c.tc : Thread nD τ).loc main_arg2)) (m ((c.tc : Thread nD τ).loc main_arg3))
      = fun _ => total m c := by
  rw [Cert.ReferenceIdeal.Loss.result_eq]
  funext _
  unfold total
  rw [Cert.KL.scale_eq]
  refine congrArg (fun s : EReal => Ideal.div (Ideal.ofBits .f32 0x00000000#32 + s) (Ideal.ofBits .f32 0x46000000#32) * Ideal.ofBits .f32 0x40800000#32) ?_
  refine Finset.sum_congr rfl fun R _ => ?_
  unfold rowLossAt
  refine congrArg₂ Cert.KL.rowLoss (funext fun C => ?_) (funext fun C => ?_)
  · rw [Cert.ReferenceIdeal.Target.target_eq]
    have e1 : larr m c = Cert.ReferenceIdeal.ReadP.val_main_v16 (F := Ideal) (m ((c.tc : Thread nD τ).loc main_arg2)) (m ((c.tc : Thread nD τ).loc main_arg3)) :=
      localPos_eq m c
    have e2 : sarr m c = m ((c.tc : Thread nD τ).loc main_arg1) := V_main_arg1 m c
    rw [e1, e2]
  · have e0 : xarr m c = m ((c.tc : Thread nD τ).loc main_arg0) := V_main_arg0 m c
    rw [e0]

end Cert.Bridge

end
-- ==== Proof.lean ====
/-
  The certificate. The three frames: the kernel's two programs by their generated frame certificates, the reference's
  by its run with the result dropped. The idealization ledger is empty. The value claim: the kernel's idealized
  program ends with the scalar (Σ_R loss of row R) · 2⁻¹¹ and the reference with ((0 + Σ_R loss of row R) / 8192) · 4
  over the same rows' losses, and the two scalings agree on every extended real; no finiteness is used.
-/
import proofs.«173937_j79267916415457_1_alg».proof.Defs
import proofs.«173937_j79267916415457_1_alg».proof.Proof.Gen.Kernel
import proofs.«173937_j79267916415457_1_alg».proof.Proof.Gen.Kernel.Skeleton
import proofs.«173937_j79267916415457_1_alg».proof.Proof.Gen.Kernel.Launch
import proofs.«173937_j79267916415457_1_alg».proof.Proof.Gen.Kernel.Points
import proofs.«173937_j79267916415457_1_alg».proof.Proof.Gen.Kernel.Frame
import proofs.«173937_j79267916415457_1_alg».proof.Proof.Gen.KernelIdeal
import proofs.«173937_j79267916415457_1_alg».proof.Proof.Gen.KernelIdeal.Skeleton
import proofs.«173937_j79267916415457_1_alg».proof.Proof.Gen.KernelIdeal.Launch
import proofs.«173937_j79267916415457_1_alg».proof.Proof.Gen.KernelIdeal.Points
import proofs.«173937_j79267916415457_1_alg».proof.Proof.Gen.KernelIdeal.Frame
import proofs.«173937_j79267916415457_1_alg».proof.Proof.Gen.ReferenceIdeal
import proofs.«173937_j79267916415457_1_alg».proof.Proof.Gen.Pre_finite_inputs
import proofs.«173937_j79267916415457_1_alg».proof.Proof.RefRun
import proofs.«173937_j79267916415457_1_alg».proof.Proof.RefStages
import proofs.«173937_j79267916415457_1_alg».proof.Proof.RefRunHand
import proofs.«173937_j79267916415457_1_alg».proof.Proof.KerRun
import proofs.«173937_j79267916415457_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2)
    (Cert.ReferenceIdeal.HandRun.run (F := Ideal) m ρ),
  trivial,
  fun m ρ m' ρ' _ hagree =>
    ⟨fun c => (fun _ => Cert.KernelIdeal.Tile.total m c),
      Cert.KernelIdeal.Tile.run m ρ,
      (θ_run (Cert.ReferenceIdeal.defs (F := Ideal)) _ _).mono
        (fun _ h c => ⟨by
            rw [(h c).1, (hagree c).1, (hagree c).2.1, (hagree c).2.2.1, (hagree c).2.2.2]
            exact Cert.Bridge.scalar_eq m c, (h c).2⟩)
        (Cert.ReferenceIdeal.HandRun.run (F := Ideal) m' ρ')⟩⟩

end Cert.Proof

end
